-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1000000 32) (main_arg2 : FVec F S64x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x128 : Shape := ⟨2, ![100000, 128]⟩
abbrev S10000x64 : Shape := ⟨2, ![10000, 64]⟩
abbrev S10000x128 : Shape := ⟨2, ![10000, 128]⟩
abbrev S1100000x128 : Shape := ⟨2, ![1100000, 128]⟩
abbrev S1x128 : Shape := ⟨2, ![1, 128]⟩
abbrev S1100000x64 : Shape := ⟨2, ![1100000, 64]⟩
abbrev S1x64 : Shape := ⟨2, ![1, 64]⟩

abbrev nBuf : Space → Nat
  | .hbm => 105
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S100000x128, .f32⟩
  | .hbm, ⟨49, _⟩ => ⟨S_, .i32⟩
  | .hbm, ⟨50, _⟩ => ⟨S1100000, .i32⟩
  | .hbm, ⟨51, _⟩ => ⟨S1100000, .i1⟩
  | .hbm, ⟨52, _⟩ => ⟨S_, .i32⟩
  | .hbm, ⟨53, _⟩ => ⟨S1100000, .i32⟩
  | .hbm, ⟨54, _⟩ => ⟨S1100000, .i32⟩
  | .hbm, ⟨55, _⟩ => ⟨S1100000, .i32⟩
  | .hbm, ⟨56, _⟩ => ⟨S1100000x1, .i32⟩
  | .hbm, ⟨57, _⟩ => ⟨S1100000x128, .f32⟩
  | .hbm, ⟨58, _⟩ => ⟨S1100000x1, .f32⟩
  | .hbm, ⟨59, _⟩ => ⟨S1100000x128, .f32⟩
  | .hbm, ⟨60, _⟩ => ⟨S1100000x128, .f32⟩
  | .hbm, ⟨61, _⟩ => ⟨S_, .f32⟩
  | .hbm, ⟨62, _⟩ => ⟨S100000x128, .f32⟩
  | .hbm, ⟨63, _⟩ => ⟨S1100000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S1100000, .i32⟩
  | .hbm, ⟨70, _⟩ => ⟨S1100000, .i1⟩
  | .hbm, ⟨71, _⟩ => ⟨S_, .i32⟩
  | .hbm, ⟨72, _⟩ => ⟨S1100000, .i32⟩
  | .hbm, ⟨73, _⟩ => ⟨S1100000, .i32⟩
  | .hbm, ⟨74, _⟩ => ⟨S1100000, .i32⟩
  | .hbm, ⟨75, _⟩ => ⟨S1100000x1, .i32⟩
  | .hbm, ⟨76, _⟩ => ⟨S1100000x64, .f32⟩
  | .hbm, ⟨77, _⟩ => ⟨S1100000x1, .f32⟩
  | .hbm, ⟨78, _⟩ => ⟨S1100000x64, .f32⟩
  | .hbm, ⟨79, _⟩ => ⟨S1100000x64, .f32⟩
  | .hbm, ⟨80, _⟩ => ⟨S_, .f32⟩
  | .hbm, ⟨81, _⟩ => ⟨S100000x64, .f32⟩
  | .hbm, ⟨82, _⟩ => ⟨S1100000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1100000, .i32⟩
  | .hbm, ⟨89, _⟩ => ⟨S1100000, .i1⟩
  | .hbm, ⟨90, _⟩ => ⟨S_, .i32⟩
  | .hbm, ⟨91, _⟩ => ⟨S1100000, .i32⟩
  | .hbm, ⟨92, _⟩ => ⟨S1100000, .i32⟩
  | .hbm, ⟨93, _⟩ => ⟨S1100000, .i32⟩
  | .hbm, ⟨94, _⟩ => ⟨S1100000x1, .i32⟩
  | .hbm, ⟨95, _⟩ => ⟨S1100000x64, .f32⟩
  | .hbm, ⟨96, _⟩ => ⟨S1100000x1, .f32⟩
  | .hbm, ⟨97, _⟩ => ⟨S1100000x64, .f32⟩
  | .hbm, ⟨98, _⟩ => ⟨S1100000x64, .f32⟩
  | .hbm, ⟨99, _⟩ => ⟨S_, .f32⟩
  | .hbm, ⟨100, _⟩ => ⟨S100000x64, .f32⟩
  | .hbm, ⟨101, _⟩ => ⟨S1100000x1, .i32⟩
  | .hbm, ⟨102, _⟩ => ⟨S100000x64, .f32⟩
  | .hbm, ⟨103, _⟩ => ⟨S1x64, .f32⟩
  | .hbm, ⟨104, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S10000x64_S64x128_S10000x128_1_0_0_1_n_n_wf : DotDims.WF S10000x64 S64x128 S10000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S10000x128_S128x64_S10000x64_1_0_0_1_n_n_wf : DotDims.WF S10000x128 S128x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v45) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x128 : Shape := ⟨2, ![100000, 128]⟩
abbrev S1100000x128 : Shape := ⟨2, ![1100000, 128]⟩
abbrev S1x128 : Shape := ⟨2, ![1, 128]⟩
abbrev S1100000x64 : Shape := ⟨2, ![1100000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S100000x128, .f32⟩
  | .hbm, ⟨49, _⟩ => ⟨S_, .i32⟩
  | .hbm, ⟨50, _⟩ => ⟨S1100000, .i32⟩
  | .hbm, ⟨51, _⟩ => ⟨S1100000, .i1⟩
  | .hbm, ⟨52, _⟩ => ⟨S_, .i32⟩
  | .hbm, ⟨53, _⟩ => ⟨S1100000, .i32⟩
  | .hbm, ⟨54, _⟩ => ⟨S1100000, .i32⟩
  | .hbm, ⟨55, _⟩ => ⟨S1100000, .i32⟩
  | .hbm, ⟨56, _⟩ => ⟨S1100000x1, .i32⟩
  | .hbm, ⟨57, _⟩ => ⟨S1100000x128, .f32⟩
  | .hbm, ⟨58, _⟩ => ⟨S1100000x1, .f32⟩
  | .hbm, ⟨59, _⟩ => ⟨S1100000x128, .f32⟩
  | .hbm, ⟨60, _⟩ => ⟨S1100000x128, .f32⟩
  | .hbm, ⟨61, _⟩ => ⟨S_, .f32⟩
  | .hbm, ⟨62, _⟩ => ⟨S100000x128, .f32⟩
  | .hbm, ⟨63, _⟩ => ⟨S1100000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1100000, .i32⟩
  | .hbm, ⟨74, _⟩ => ⟨S1100000, .i1⟩
  | .hbm, ⟨75, _⟩ => ⟨S_, .i32⟩
  | .hbm, ⟨76, _⟩ => ⟨S1100000, .i32⟩
  | .hbm, ⟨77, _⟩ => ⟨S1100000, .i32⟩
  | .hbm, ⟨78, _⟩ => ⟨S1100000, .i32⟩
  | .hbm, ⟨79, _⟩ => ⟨S1100000x1, .i32⟩
  | .hbm, ⟨80, _⟩ => ⟨S1100000x64, .f32⟩
  | .hbm, ⟨81, _⟩ => ⟨S1100000x1, .f32⟩
  | .hbm, ⟨82, _⟩ => ⟨S1100000x64, .f32⟩
  | .hbm, ⟨83, _⟩ => ⟨S1100000x64, .f32⟩
  | .hbm, ⟨84, _⟩ => ⟨S_, .f32⟩
  | .hbm, ⟨85, _⟩ => ⟨S100000x64, .f32⟩
  | .hbm, ⟨86, _⟩ => ⟨S1100000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .i32⟩
  | .hbm, ⟨93, _⟩ => ⟨S1100000, .i32⟩
  | .hbm, ⟨94, _⟩ => ⟨S1100000, .i1⟩
  | .hbm, ⟨95, _⟩ => ⟨S_, .i32⟩
  | .hbm, ⟨96, _⟩ => ⟨S1100000, .i32⟩
  | .hbm, ⟨97, _⟩ => ⟨S1100000, .i32⟩
  | .hbm, ⟨98, _⟩ => ⟨S1100000, .i32⟩
  | .hbm, ⟨99, _⟩ => ⟨S1100000x1, .i32⟩
  | .hbm, ⟨100, _⟩ => ⟨S1100000x64, .f32⟩
  | .hbm, ⟨101, _⟩ => ⟨S1100000x1, .f32⟩
  | .hbm, ⟨102, _⟩ => ⟨S1100000x64, .f32⟩
  | .hbm, ⟨103, _⟩ => ⟨S1100000x64, .f32⟩
  | .hbm, ⟨104, _⟩ => ⟨S_, .f32⟩
  | .hbm, ⟨105, _⟩ => ⟨S100000x64, .f32⟩
  | .hbm, ⟨106, _⟩ => ⟨S1100000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .hbm, ⟨111, _⟩ => ⟨S_, .f32⟩
  | .hbm, ⟨112, _⟩ => ⟨S100000x64, .f32⟩
  | .hbm, ⟨113, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_15 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x128_S100000x128_1_0_0_1_n_n_wf : DotDims.WF S100000x64 S64x128 S100000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

class Facts : Prop extends Facts₀ where

variable [Facts]
-- ==== Proof.Spec.lean ====
/-
  The two programs share one graph convolution, applied three times: a dense layer `h = x · W`, then
  the propagation `agg[v] = Σ_{e : dst e = v} norm e · h[src e]` over the edge list with self loops
  (a row gather by source, a scale by the edge weight, a scatter-add by destination), then a bias row
  added to every row and an activation (max with 0, none, or min with 10). The propagation is the SAME
  host operations in both programs, so it is carried here as one function of its operands and never
  opened; only the dense layer and the bias step, which the kernel computes block by block, are read at
  an index. Everything is stated over the reference's shapes and dimension records.
-/
import proofs.«158724_j65481071395096_1_alg».proof.Proof.Gen.ReferenceIdeal
import Idealize.ShloMosaic.Lib.ValueIdx
import Idealize.ShloMosaic.Lib.Pipeline.Value
import Idealize.ShloMosaic.PureOps.Ideal.Laws

noncomputable section

namespace Cert.Gcn

open Cert.ReferenceIdeal Cert.ReferenceIdeal.Gen Idealize.ShloMosaic Idealize.ShloMosaic.TcCoe

variable {F : FTy → Type} [FloatOps F]

/-! ## The dense layers -/

/-- `x · W` for nodes × 64 by 64 × 128: the contraction over the 64 input channels. -/
def dense1 (x : (⟨S100000x64, .f32⟩ : BufTy).Contents (Elt F)) (w : (⟨S64x128, .f32⟩ : BufTy).Contents (Elt F)) :
    (⟨S100000x128, .f32⟩ : BufTy).Contents (Elt F) :=
  Host.dotGeneral dot_S100000x64_S64x128_S100000x128_1_0_0_1_n_n none x w

/-- `h · W` for nodes × 128 by 128 × 64: the contraction over the 128 hidden channels. -/
def dense2 (h : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none h w

/-- Row `i 0` of the left factor at column `k`. -/
abbrev lrow1 (i : S100000x128.Idx) (k : Fin 64) : S100000x64.Idx := fun a => match a with
  | ⟨0, _⟩ => ⟨(i 0).val, (i 0).isLt⟩
  | ⟨1, _⟩ => ⟨k.val, k.isLt⟩
/-- Column `i 1` of the right factor at row `k`. -/
abbrev rcol1 (i : S100000x128.Idx) (k : Fin 64) : S64x128.Idx := fun a => match a with
  | ⟨0, _⟩ => ⟨k.val, k.isLt⟩
  | ⟨1, _⟩ => ⟨(i 1).val, (i 1).isLt⟩
abbrev lrow2 (i : S100000x64.Idx) (k : Fin 128) : S100000x128.Idx := fun a => match a with
  | ⟨0, _⟩ => ⟨(i 0).val, (i 0).isLt⟩
  | ⟨1, _⟩ => ⟨k.val, k.isLt⟩
abbrev rcol2 (i : S100000x64.Idx) (k : Fin 128) : S128x64.Idx := fun a => match a with
  | ⟨0, _⟩ => ⟨k.val, k.isLt⟩
  | ⟨1, _⟩ => ⟨(i 1).val, (i 1).isLt⟩

theorem lhs1_0 (i : S100000x128.Idx) (q : dot_S100000x64_S64x128_S100000x128_1_0_0_1_n_n.contr.Idx) :
    (dot_S100000x64_S64x128_S100000x128_1_0_0_1_n_n.lhsIdx i q 0).val = (i 0).val := by
  unfold DotDims.lhsIdx
  rw [dif_neg (show ¬(0 : Fin S100000x64.rank) ∈ dot_S100000x64_S64x128_S100000x128_1_0_0_1_n_n.lhsBatch by decide), dif_pos (show (0 : Fin S100000x64.rank) ∈ dot_S100000x64_S64x128_S100000x128_1_0_0_1_n_n.lhsNonContracting by decide)]
  rfl
theorem lhs1_1 (i : S100000x128.Idx) (q : dot_S100000x64_S64x128_S100000x128_1_0_0_1_n_n.contr.Idx) :
    (dot_S100000x64_S64x128_S100000x128_1_0_0_1_n_n.lhsIdx i q 1).val = (q ⟨0, by decide⟩).val :=
  dot_S100000x64_S64x128_S100000x128_1_0_0_1_n_n.lhsIdx_val_of_single rfl i q
theorem rhs1_0 (i : S100000x128.Idx) (q : dot_S100000x64_S64x128_S100000x128_1_0_0_1_n_n.contr.Idx) :
    (dot_S100000x64_S64x128_S100000x128_1_0_0_1_n_n.rhsIdx i q 0).val = (q ⟨0, by decide⟩).val :=
  dot_S100000x64_S64x128_S100000x128_1_0_0_1_n_n.rhsIdx_val_of_single rfl i q
theorem rhs1_1 (i : S100000x128.Idx) (q : dot_S100000x64_S64x128_S100000x128_1_0_0_1_n_n.contr.Idx) :
    (dot_S100000x64_S64x128_S100000x128_1_0_0_1_n_n.rhsIdx i q 1).val = (i 1).val := by
  unfold DotDims.rhsIdx
  rw [dif_neg (show ¬(1 : Fin S64x128.rank) ∈ dot_S100000x64_S64x128_S100000x128_1_0_0_1_n_n.rhsBatch by decide), dif_pos (show (1 : Fin S64x128.rank) ∈ dot_S100000x64_S64x128_S100000x128_1_0_0_1_n_n.rhsNonContracting by decide)]
  rfl

/-- Over the extended reals an entry of `x · W` is the plain sum over the 64 input channels. -/
theorem dense1_apply (x : (⟨S100000x64, .f32⟩ : BufTy).Contents (Elt Ideal)) (w : (⟨S64x128, .f32⟩ : BufTy).Contents (Elt Ideal)) (i : S100000x128.Idx) :
    dense1 (F := Ideal) x w i = ∑ k : Fin 64, x (lrow1 i k) * w (rcol1 i k) := by
  unfold dense1
  simp only [Host.dotGeneral]
  rw [Ideal.dotGeneral_apply, ← Equiv.sum_comp (ValueIdx.contrEquiv1 dot_S100000x64_S64x128_S100000x128_1_0_0_1_n_n 64 rfl rfl).symm]
  refine Finset.sum_congr rfl fun k _ => ?_
  have hk := ValueIdx.contrEquiv1_symm_val dot_S100000x64_S64x128_S100000x128_1_0_0_1_n_n 64 rfl rfl k
  have el : dot_S100000x64_S64x128_S100000x128_1_0_0_1_n_n.lhsIdx i ((ValueIdx.contrEquiv1 dot_S100000x64_S64x128_S100000x128_1_0_0_1_n_n 64 rfl rfl).symm k) = lrow1 i k := funext fun a => Fin.ext (by
    match a with
    | ⟨0, _⟩ => exact lhs1_0 _ _
    | ⟨1, _⟩ => exact (lhs1_1 _ _).trans hk)
  have er : dot_S100000x64_S64x128_S100000x128_1_0_0_1_n_n.rhsIdx i ((ValueIdx.contrEquiv1 dot_S100000x64_S64x128_S100000x128_1_0_0_1_n_n 64 rfl rfl).symm k) = rcol1 i k := funext fun a => Fin.ext (by
    match a with
    | ⟨0, _⟩ => exact (rhs1_0 _ _).trans hk
    | ⟨1, _⟩ => exact rhs1_1 _ _)
  rw [el, er]

theorem lhs2_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs2_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs2_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs2_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- Over the extended reals an entry of `h · W` is the plain sum over the 128 hidden channels. -/
theorem dense2_apply (h : (⟨S100000x128, .f32⟩ : BufTy).Contents (Elt Ideal)) (w : (⟨S128x64, .f32⟩ : BufTy).Contents (Elt Ideal)) (i : S100000x64.Idx) :
    dense2 (F := Ideal) h w i = ∑ k : Fin 128, h (lrow2 i k) * w (rcol2 i k) := by
  unfold dense2
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = lrow2 i k := funext fun a => Fin.ext (by
    match a with
    | ⟨0, _⟩ => exact lhs2_0 _ _
    | ⟨1, _⟩ => exact (lhs2_1 _ _).trans hk)
  have er : dot_S100000x128_S128x64_S100000x64_1_0_0_1_n_n.rhsIdx i ((ValueIdx.contrEquiv1 dot_S100000x128_S128x64_S100000x64_1_0_0_1_n_n 128 rfl rfl).symm k) = rcol2 i k := funext fun a => Fin.ext (by
    match a with
    | ⟨0, _⟩ => exact (rhs2_0 _ _).trans hk
    | ⟨1, _⟩ => exact rhs2_1 _ _)
  rw [el, er]

/-! ## The propagation, carried whole -/

/-- jnp's wrap of a negative index word: `s + 100000` where `s < 0`, else `s`. -/
def wrapNeg (s : (⟨S1100000, .i32⟩ : BufTy).Contents (Elt F)) : (⟨S1100000, .i32⟩ : BufTy).Contents (Elt F) :=
  select (cmpi .slt s (broadcastInDim S1100000 ![] bcast_S_S1100000 (constantI S_ 32 0#32)))
    (addi s (broadcastInDim S1100000 ![] bcast_S_S1100000 (constantI S_ 32 100000#32))) s

/-- The propagation at width 128: rows of `h` gathered by source, scaled by the edge weight, summed by destination. -/
def prop128 (h : (⟨S100000x128, .f32⟩ : BufTy).Contents (Elt F)) (s d : (⟨S1100000, .i32⟩ : BufTy).Contents (Elt F))
    (nrm : (⟨S1100000, .f32⟩ : BufTy).Contents (Elt F)) : (⟨S100000x128, .f32⟩ : BufTy).Contents (Elt F) :=
  Host.scatterAdd scatter_S100000x128_S1100000x1_S1100000x128_1_0_0_1
    (broadcastInDim S100000x128 ![] bcast_S_S100000x128 (constant S_ .f32 0x00000000#32))
    (broadcastInDim S1100000x1 ![0] bcast_S1100000_S1100000x1_0 d)
    (mulf (Host.gather gather_S100000x128_S1100000x1_S1100000x128_1_0_n_n_0_1_1128 h (broadcastInDim S1100000x1 ![0] bcast_S1100000_S1100000x1_0 (wrapNeg s)))
      (broadcastInDim S1100000x128 ![0, 1] bcast_S1100000x1_S1100000x128_0_1 (broadcastInDim S1100000x1 ![0] bcast_S1100000_S1100000x1_0 nrm)))

/-- The propagation at width 64. -/
def prop64 (h : (⟨S100000x64, .f32⟩ : BufTy).Contents (Elt F)) (s d : (⟨S1100000, .i32⟩ : BufTy).Contents (Elt F))
    (nrm : (⟨S1100000, .f32⟩ : BufTy).Contents (Elt F)) : (⟨S100000x64, .f32⟩ : BufTy).Contents (Elt F) :=
  Host.scatterAdd scatter_S100000x64_S1100000x1_S1100000x64_1_0_0_1
    (broadcastInDim S100000x64 ![] bcast_S_S100000x64 (constant S_ .f32 0x00000000#32))
    (broadcastInDim S1100000x1 ![0] bcast_S1100000_S1100000x1_0 d)
    (mulf (Host.gather gather_S100000x64_S1100000x1_S1100000x64_1_0_n_n_0_1_164 h (broadcastInDim S1100000x1 ![0] bcast_S1100000_S1100000x1_0 (wrapNeg s)))
      (broadcastInDim S1100000x64 ![0, 1] bcast_S1100000x1_S1100000x64_0_1 (broadcastInDim S1100000x1 ![0] bcast_S1100000_S1100000x1_0 nrm)))

/-! ## The edge list with self loops, and the edge weights -/

/-- The sources: row 0 of the edge array, then every node once (its self loop). -/
def srcOf (e : (⟨S2x1000000, .i32⟩ : BufTy).Contents (Elt F)) : (⟨S1100000, .i32⟩ : BufTy).Contents (Elt F) :=
  concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0

/-- The destinations: row 1 of the edge array, then every node once. -/
def dstOf (e : (⟨S2x1000000, .i32⟩ : BufTy).Contents (Elt F)) : (⟨S1100000, .i32⟩ : BufTy).Contents (Elt F) :=
  concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0

/-- A node's degree: one summed per edge into its destination. -/
def degOf (d : (⟨S1100000, .i32⟩ : BufTy).Contents (Elt F)) : (⟨S100000, .f32⟩ : BufTy).Contents (Elt F) :=
  Host.scatterAdd scatter_S100000_S1100000x1_S1100000_n_0_0_1 (broadcastInDim S100000 ![] bcast_S_S100000 (constant S_ .f32 0x00000000#32))
    (broadcastInDim S1100000x1 ![0] bcast_S1100000_S1100000x1_0 d) (broadcastInDim S1100000 ![] bcast_S_S1100000 (constant S_ .f32 0x3F800000#32))

/-- The degree's inverse square root where the degree is positive, zero elsewhere. -/
def dinvOf (deg : (⟨S100000, .f32⟩ : BufTy).Contents (Elt F)) : (⟨S100000, .f32⟩ : BufTy).Contents (Elt F) :=
  select (cmpf (F := F) .ogt deg (broadcastInDim S100000 ![] bcast_S_S100000 (constant S_ .f32 0x00000000#32))) (Host.rsqrt deg)
    (broadcastInDim S100000 ![] bcast_S_S100000 (id (constant S_ .f32 0x00000000#32)))

/-- An edge's weight: the product of its two ends' inverse square root degrees. -/
def normOf (s d : (⟨S1100000, .i32⟩ : BufTy).Contents (Elt F)) : (⟨S1100000, .f32⟩ : BufTy).Contents (Elt F) :=
  mulf (Host.gather gather_S100000_S1100000x1_S1100000_n_0_n_n_0_1_1 (dinvOf (degOf d)) (broadcastInDim S1100000x1 ![0] bcast_S1100000_S1100000x1_0 (wrapNeg s)))
    (Host.gather gather_S100000_S1100000x1_S1100000_n_0_n_n_0_1_1 (dinvOf (degOf d)) (broadcastInDim S1100000x1 ![0] bcast_S1100000_S1100000x1_0 (wrapNeg d)))

/-! ## The bias row and the activation -/

/-- A bias vector as a 1 × 128 row. -/
def row128 (b : (⟨S128, .f32⟩ : BufTy).Contents (Elt F)) : (⟨S1x128, .f32⟩ : BufTy).Contents (Elt F) :=
  broadcastInDim S1x128 ![1] bcast_S128_S1x128_1 b
/-- A bias vector as a 1 × 64 row. -/
def row64 (b : (⟨S64, .f32⟩ : BufTy).Contents (Elt F)) : (⟨S1x64, .f32⟩ : BufTy).Contents (Elt F) :=
  broadcastInDim S1x64 ![1] bcast_S64_S1x64_1 b

/-- The row added to every row of `a`, then the maximum with zero. -/
def biasRelu (a : (⟨S100000x128, .f32⟩ : BufTy).Contents (Elt F)) (b : (⟨S1x128, .f32⟩ : BufTy).Contents (Elt F)) :
    (⟨S100000x128, .f32⟩ : BufTy).Contents (Elt F) :=
  maximumf (addf a (broadcastInDim S100000x128 ![0, 1] bcast_S1x128_S100000x128_0_1 b))
    (broadcastInDim S100000x128 ![] bcast_S_S100000x128 (constant S_ .f32 0x00000000#32))

/-- The row added to every row of `a`. -/
def bias64 (a : (⟨S100000x64, .f32⟩ : BufTy).Contents (Elt F)) (b : (⟨S1x64, .f32⟩ : BufTy).Contents (Elt F)) :
    (⟨S100000x64, .f32⟩ : BufTy).Contents (Elt F) :=
  addf a (broadcastInDim S100000x64 ![0, 1] bcast_S1x64_S100000x64_0_1 b)

/-- The row added to every row of `a`, then the minimum with ten. -/
def biasMin64 (a : (⟨S100000x64, .f32⟩ : BufTy).Contents (Elt F)) (b : (⟨S1x64, .f32⟩ : BufTy).Contents (Elt F)) :
    (⟨S100000x64, .f32⟩ : BufTy).Contents (Elt F) :=
  minimumf (bias64 a b) (broadcastInDim S100000x64 ![] bcast_S_S100000x64 (constant S_ .f32 0x41200000#32))

/-- Column `i 1` of the one row. -/
abbrev rowAt128 (i : S100000x128.Idx) : S1x128.Idx := fun a => match a with
  | ⟨0, _⟩ => ⟨0, Nat.one_pos⟩
  | ⟨1, _⟩ => ⟨(i 1).val, (i 1).isLt⟩
abbrev rowAt64 (i : S100000x64.Idx) : S1x64.Idx := fun a => match a with
  | ⟨0, _⟩ => ⟨0, Nat.one_pos⟩
  | ⟨1, _⟩ => ⟨(i 1).val, (i 1).isLt⟩

theorem bcastRow128_apply (b : (⟨S1x128, .f32⟩ : BufTy).Contents (Elt F)) (i : S100000x128.Idx) :
    broadcastInDim S100000x128 ![0, 1] bcast_S1x128_S100000x128_0_1 b i = b (rowAt128 i) :=
  broadcastInDim_apply _ bcast_S1x128_S100000x128_0_1 b i (rowAt128 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
theorem bcastRow64_apply (b : (⟨S1x64, .f32⟩ : BufTy).Contents (Elt F)) (i : S100000x64.Idx) :
    broadcastInDim S100000x64 ![0, 1] bcast_S1x64_S100000x64_0_1 b i = b (rowAt64 i) :=
  broadcastInDim_apply _ bcast_S1x64_S100000x64_0_1 b i (rowAt64 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])
theorem bcastZero128_apply (i : S100000x128.Idx) :
    broadcastInDim S100000x128 ![] bcast_S_S100000x128 (constant (F := F) S_ .f32 0x00000000#32) i = FloatOps.ofBits .f32 0x00000000#32 :=
  broadcastInDim_apply _ bcast_S_S100000x128 _ i (fun a => a.elim0) (fun a => a.elim0)
theorem bcastTen64_apply (i : S100000x64.Idx) :
    broadcastInDim S100000x64 ![] bcast_S_S100000x64 (constant (F := F) S_ .f32 0x41200000#32) i = FloatOps.ofBits .f32 0x41200000#32 :=
  broadcastInDim_apply _ bcast_S_S100000x64 _ i (fun a => a.elim0) (fun a => a.elim0)

/-- Entry `i`: the entry of `a` plus the row's entry in that column, against zero. -/
theorem biasRelu_apply (a : (⟨S100000x128, .f32⟩ : BufTy).Contents (Elt F)) (b : (⟨S1x128, .f32⟩ : BufTy).Contents (Elt F)) (i : S100000x128.Idx) :
    biasRelu a b i = FloatOps.maximumf (FloatOps.addf (a i) (b (rowAt128 i))) (FloatOps.ofBits .f32 0x00000000#32) := by
  show FloatOps.maximumf (FloatOps.addf (a i) (broadcastInDim S100000x128 ![0, 1] bcast_S1x128_S100000x128_0_1 b i)) (broadcastInDim S100000x128 ![] bcast_S_S100000x128 (constant (F := F) S_ .f32 0x00000000#32) i) = _
  rw [bcastRow128_apply, bcastZero128_apply]
theorem bias64_apply (a : (⟨S100000x64, .f32⟩ : BufTy).Contents (Elt F)) (b : (⟨S1x64, .f32⟩ : BufTy).Contents (Elt F)) (i : S100000x64.Idx) :
    bias64 a b i = FloatOps.addf (a i) (b (rowAt64 i)) := by
  show FloatOps.addf (a i) (broadcastInDim S100000x64 ![0, 1] bcast_S1x64_S100000x64_0_1 b i) = _
  rw [bcastRow64_apply]
theorem biasMin64_apply (a : (⟨S100000x64, .f32⟩ : BufTy).Contents (Elt F)) (b : (⟨S1x64, .f32⟩ : BufTy).Contents (Elt F)) (i : S100000x64.Idx) :
    biasMin64 a b i = FloatOps.minimumf (FloatOps.addf (a i) (b (rowAt64 i))) (FloatOps.ofBits .f32 0x41200000#32) := by
  show FloatOps.minimumf (bias64 a b i) (broadcastInDim S100000x64 ![] bcast_S_S100000x64 (constant (F := F) S_ .f32 0x41200000#32) i) = _
  rw [bias64_apply, bcastTen64_apply]

/-! ## The three layers composed -/

/-- The hidden layer: dense, propagate, bias, maximum with zero. -/
def hiddenOf (x : (⟨S100000x64, .f32⟩ : BufTy).Contents (Elt F)) (e : (⟨S2x1000000, .i32⟩ : BufTy).Contents (Elt F))
    (w1 : (⟨S64x128, .f32⟩ : BufTy).Contents (Elt F)) (b1 : (⟨S128, .f32⟩ : BufTy).Contents (Elt F)) : (⟨S100000x128, .f32⟩ : BufTy).Contents (Elt F) :=
  biasRelu (prop128 (dense1 x w1) (srcOf e) (dstOf e) (normOf (srcOf e) (dstOf e))) (row128 b1)

/-- The mean head: dense, propagate, bias. -/
def muOf (x : (⟨S100000x64, .f32⟩ : BufTy).Contents (Elt F)) (e : (⟨S2x1000000, .i32⟩ : BufTy).Contents (Elt F))
    (w1 : (⟨S64x128, .f32⟩ : BufTy).Contents (Elt F)) (b1 : (⟨S128, .f32⟩ : BufTy).Contents (Elt F))
    (w : (⟨S128x64, .f32⟩ : BufTy).Contents (Elt F)) (b : (⟨S64, .f32⟩ : BufTy).Contents (Elt F)) : (⟨S100000x64, .f32⟩ : BufTy).Contents (Elt F) :=
  bias64 (prop64 (dense2 (hiddenOf x e w1 b1) w) (srcOf e) (dstOf e) (normOf (srcOf e) (dstOf e))) (row64 b)

/-- The log-deviation head: dense, propagate, bias, minimum with ten. -/
def logstdOf (x : (⟨S100000x64, .f32⟩ : BufTy).Contents (Elt F)) (e : (⟨S2x1000000, .i32⟩ : BufTy).Contents (Elt F))
    (w1 : (⟨S64x128, .f32⟩ : BufTy).Contents (Elt F)) (b1 : (⟨S128, .f32⟩ : BufTy).Contents (Elt F))
    (w : (⟨S128x64, .f32⟩ : BufTy).Contents (Elt F)) (b : (⟨S64, .f32⟩ : BufTy).Contents (Elt F)) : (⟨S100000x64, .f32⟩ : BufTy).Contents (Elt F) :=
  biasMin64 (prop64 (dense2 (hiddenOf x e w1 b1) w) (srcOf e) (dstOf e) (normOf (srcOf e) (dstOf e))) (row64 b)

end Cert.Gcn

end
-- ==== Proof.Stretch.lean ====
/-
  The host stretches of the kernel's program, each read at the buffers a later region or stretch uses,
  from ANY contents `W` the stretch is entered with and for any float family. The opening stretches
  build the edge list with self loops and the edge weights; each later stretch is one propagation
  (gather by source, scale, scatter-add by destination) of the dense layer's output, and a reshape of a
  bias vector into a row; a buffer the stretch does not write passes through untouched. The propagation
  is met as ONE function of its operands (`Cert.Gcn.prop128`, `prop64`): the same host operations the
  reference applies, so it is never opened.
-/
import proofs.«158724_j65481071395096_1_alg».proof.Proof.Gen.KernelIdeal.Launch
import proofs.«158724_j65481071395096_1_alg».proof.Proof.Spec
import Idealize.ShloMosaic.Lib.StableHlo.Run
import Idealize.ShloMosaic.Lib.Pipeline.Value

noncomputable section

namespace Cert.KernelIdeal.Stretch

open Cert.KernelIdeal Cert.KernelIdeal.Gen Idealize.ShloMosaic Idealize.ShloMosaic.TcCoe Idealize.ShloMosaic.StableHlo Idealize.SL.Sem

variable {F : FTy → Type} [FloatOps F] (W : Valuation τ sig (Elt F))

/-! ## The opening stretches: the edge list and the edge weights -/

/-- The contents after the three opening stretches. -/
abbrev opened : Valuation τ sig (Elt F) :=
  StableHlo.after (hostOps0_2 (F := F)) (StableHlo.after (hostOps0_1 (F := F)) (StableHlo.after (hostOps0 (F := F)) W))

/-- The sources: row 0 of the edge array, then the self loops. -/
theorem init_src : opened W (Proc.devRef .tc main_v3) = Cert.Gcn.srcOf (F := F) (W (Proc.devRef .tc main_arg1)) := by
  after_results_simp
  rfl
/-- The destinations: row 1 of the edge array, then the self loops. -/
theorem init_dst : opened W (Proc.devRef .tc main_v6) = Cert.Gcn.dstOf (F := F) (W (Proc.devRef .tc main_arg1)) := by
  after_results_simp
  rfl
/-- The edge weights: the two ends' inverse square root degrees multiplied. -/
theorem init_norm : opened W (Proc.devRef .tc main_v29)
    = Cert.Gcn.normOf (F := F) (Cert.Gcn.srcOf (W (Proc.devRef .tc main_arg1))) (Cert.Gcn.dstOf (W (Proc.devRef .tc main_arg1))) := by
  after_results_simp
  rfl
/-- The opening stretches write no argument array. -/
theorem init_keep : ∀ b ∈ ([main_arg0, main_arg2, main_arg3, main_arg4, main_arg5, main_arg6, main_arg7] : List (Ref sig .tc)),
    opened W (Proc.devRef .tc b) = W (Proc.devRef .tc b) := by
  intro b hb
  simp only [List.mem_cons, List.mem_nil_iff, or_false] at hb
  rcases hb with rfl | rfl | rfl | rfl | rfl | rfl | rfl <;> after_results_simp

/-! ## After the first dense layer: propagation at width 128, the first bias as a row -/

theorem s1_agg : StableHlo.after (hostOps1 (F := F)) W (Proc.devRef .tc main_v43)
    = Cert.Gcn.prop128 (F := F) (W (Proc.devRef .tc main_v30)) (W (Proc.devRef .tc main_v3)) (W (Proc.devRef .tc main_v6)) (W (Proc.devRef .tc main_v29)) := by
  after_results_simp
  rfl
theorem s1_row : StableHlo.after (hostOps1 (F := F)) W (Proc.devRef .tc main_v44)
    = shapeCast S1x128 (W (Proc.devRef .tc main_arg3)) shapeCasts_S128_S1x128 := by
  after_results_simp
  rfl
/-- It writes neither the edge list, nor the weights, nor a later argument. -/
theorem s1_keep : ∀ b ∈ ([main_v3, main_v6, main_v29, main_arg4, main_arg5, main_arg6, main_arg7] : List (Ref sig .tc)),
    StableHlo.after (hostOps1 (F := F)) W (Proc.devRef .tc b) = W (Proc.devRef .tc b) := by
  intro b hb
  simp only [List.mem_cons, List.mem_nil_iff, or_false] at hb
  rcases hb with rfl | rfl | rfl | rfl | rfl | rfl | rfl <;> after_results_simp

/-! ## After the mean head's dense layer: propagation at width 64, its bias as a row -/

theorem s3_agg : StableHlo.after (hostOps3 (F := F)) W (Proc.devRef .tc main_v59)
    = Cert.Gcn.prop64 (F := F) (W (Proc.devRef .tc main_v46)) (W (Proc.devRef .tc main_v3)) (W (Proc.devRef .tc main_v6)) (W (Proc.devRef .tc main_v29)) := by
  after_results_simp
  rfl
theorem s3_row : StableHlo.after (hostOps3 (F := F)) W (Proc.devRef .tc main_v60)
    = shapeCast S1x64 (W (Proc.devRef .tc main_arg5)) shapeCasts_S64_S1x64 := by
  after_results_simp
  rfl
/-- It writes neither the hidden layer, nor the edge list, nor the weights, nor a later argument. -/
theorem s3_keep : ∀ b ∈ ([main_v45, main_v3, main_v6, main_v29, main_arg6, main_arg7] : List (Ref sig .tc)),
    StableHlo.after (hostOps3 (F := F)) W (Proc.devRef .tc b) = W (Proc.devRef .tc b) := by
  intro b hb
  simp only [List.mem_cons, List.mem_nil_iff, or_false] at hb
  rcases hb with rfl | rfl | rfl | rfl | rfl | rfl <;> after_results_simp

/-! ## After the log-deviation head's dense layer: propagation at width 64, its bias as a row -/

theorem s5_agg : StableHlo.after (hostOps5 (F := F)) W (Proc.devRef .tc main_v75)
    = Cert.Gcn.prop64 (F := F) (W (Proc.devRef .tc main_v62)) (W (Proc.devRef .tc main_v3)) (W (Proc.devRef .tc main_v6)) (W (Proc.devRef .tc main_v29)) := by
  after_results_simp
  rfl
theorem s5_row : StableHlo.after (hostOps5 (F := F)) W (Proc.devRef .tc main_v76)
    = shapeCast S1x64 (W (Proc.devRef .tc main_arg7)) shapeCasts_S64_S1x64 := by
  after_results_simp
  rfl
/-- It does not write the mean head's result. -/
theorem s5_keep : StableHlo.after (hostOps5 (F := F)) W (Proc.devRef .tc main_v61) = W (Proc.devRef .tc main_v61) := by
  after_results_simp

/-! ## A bias vector reshaped into a row is the row the reference broadcasts it into -/

theorem row128_of_reshape (b : (⟨S128, .f32⟩ : BufTy).Contents (Elt F)) :
    shapeCast S1x128 b shapeCasts_S128_S1x128 = Cert.Gcn.row128 (F := F) b := by
  funext i
  have hl : shapeCast S1x128 b shapeCasts_S128_S1x128 i = b (fun a => i a.succ) :=
    shapeCast_addUnit_apply ![128] b shapeCasts_S128_S1x128 i
  have hr : Cert.Gcn.row128 (F := F) b i = b (fun a => match a with | ⟨0, _⟩ => ⟨(i 1).val, (i 1).isLt⟩) := by
    unfold Cert.Gcn.row128
    exact broadcastInDim_apply _ Cert.ReferenceIdeal.Gen.bcast_S128_S1x128_1 b i _ (fun a => match a with
      | ⟨0, _⟩ => by show (i 1).val = if (128 : Nat) = 1 then 0 else (i 1).val; rw [if_neg (by decide)])
  rw [hl, hr]
  congr 1
  funext a
  match a with
  | ⟨0, _⟩ => rfl

theorem row64_of_reshape (b : (⟨S64, .f32⟩ : BufTy).Contents (Elt F)) :
    shapeCast S1x64 b shapeCasts_S64_S1x64 = Cert.Gcn.row64 (F := F) b := by
  funext i
  have hl : shapeCast S1x64 b shapeCasts_S64_S1x64 i = b (fun a => i a.succ) :=
    shapeCast_addUnit_apply ![64] b shapeCasts_S64_S1x64 i
  have hr : Cert.Gcn.row64 (F := F) b i = b (fun a => match a with | ⟨0, _⟩ => ⟨(i 1).val, (i 1).isLt⟩) := by
    unfold Cert.Gcn.row64
    exact broadcastInDim_apply _ Cert.ReferenceIdeal.Gen.bcast_S64_S1x64_1 b i _ (fun a => match a with
      | ⟨0, _⟩ => by show (i 1).val = if (64 : Nat) = 1 then 0 else (i 1).val; rw [if_neg (by decide)])
  rw [hl, hr]
  congr 1
  funext a
  match a with
  | ⟨0, _⟩ => rfl

end Cert.KernelIdeal.Stretch

end
-- ==== Proof.Fold.lean ====
/-
  The kernel's program read from the launch memory to its two results. @main is twelve segments: the
  opening host stretches (the edge list with self loops and the edge weights), then for each of the
  three layers a dense region, a host propagation and a bias region, the two heads sharing the hidden
  layer. `W_j` is what the TensorCore's buffers hold at the j-th segment boundary. A region leaves its
  output array at the layer's function of its input arrays as it found them (the six facts assumed as
  `RegionValues`, proved region by region elsewhere) and every other buffer untouched; a host stretch
  leaves its results at the operations' function of their operands and every buffer it does not write
  untouched. Following each buffer that a later segment reads, boundary by boundary, the two results at
  the last boundary are the mean head and the log-deviation head of the specification.
-/
import proofs.«158724_j65481071395096_1_alg».proof.Proof.Gen.KernelIdeal.Frame
import proofs.«158724_j65481071395096_1_alg».proof.Proof.Spec
import proofs.«158724_j65481071395096_1_alg».proof.Proof.Stretch

set_option maxRecDepth 16384

noncomputable section

namespace Cert.KernelIdeal.Fold

open Cert.KernelIdeal Cert.KernelIdeal.Gen Idealize.ShloMosaic Idealize.ShloMosaic.TcCoe Idealize.ShloMosaic.StableHlo Idealize.SL.Sem
open Idealize.ShloMosaic.Pipeline (Dat Cfg Window)

/-- What each region leaves in its output array, from ANY contents `V` it is entered with: the layer's
    function of its two input arrays. -/
structure RegionValues : Prop where
  dense_in : ∀ (V : (c : Dev nD) → (b : Ref sig .tc) → Buf (Elt Ideal) ((c : Thread nD τ).loc b)) (c : Dev nD),
    (dat0 (F := Ideal) V c).arrAt 2 cfg0.N = Cert.Gcn.dense1 (F := Ideal) (V c main_arg0) (V c main_arg2)
  bias_relu : ∀ (V : (c : Dev nD) → (b : Ref sig .tc) → Buf (Elt Ideal) ((c : Thread nD τ).loc b)) (c : Dev nD),
    (dat1 (F := Ideal) V c).arrAt 2 cfg1.N = Cert.Gcn.biasRelu (F := Ideal) (V c main_v43) (V c main_v44)
  dense_mean : ∀ (V : (c : Dev nD) → (b : Ref sig .tc) → Buf (Elt Ideal) ((c : Thread nD τ).loc b)) (c : Dev nD),
    (dat2 (F := Ideal) V c).arrAt 2 cfg2.N = Cert.Gcn.dense2 (F := Ideal) (V c main_v45) (V c main_arg4)
  bias_mean : ∀ (V : (c : Dev nD) → (b : Ref sig .tc) → Buf (Elt Ideal) ((c : Thread nD τ).loc b)) (c : Dev nD),
    (dat3 (F := Ideal) V c).arrAt 2 cfg3.N = Cert.Gcn.bias64 (F := Ideal) (V c main_v59) (V c main_v60)
  dense_dev : ∀ (V : (c : Dev nD) → (b : Ref sig .tc) → Buf (Elt Ideal) ((c : Thread nD τ).loc b)) (c : Dev nD),
    (dat4 (F := Ideal) V c).arrAt 2 cfg4.N = Cert.Gcn.dense2 (F := Ideal) (V c main_v45) (V c main_arg6)
  bias_min : ∀ (V : (c : Dev nD) → (b : Ref sig .tc) → Buf (Elt Ideal) ((c : Thread nD τ).loc b)) (c : Dev nD),
    (dat5 (F := Ideal) V c).arrAt 2 cfg5.N = Cert.Gcn.biasMin64 (F := Ideal) (V c main_v75) (V c main_v76)

variable (m : (ℓ : Loc nD τ sig) → Buf (Elt Ideal) ℓ) (ρ : Dev nD → PrngReg) (c : Dev nD)

/-! ## What is carried: a buffer no segment writes keeps its contents

Between the opening stretches and its last reader, none of the edge list, the weights or a later argument
is a region's array or a stretch's result. -/

/-- Region 0 (arrays: features, first weight, its output). -/
theorem step4 : ∀ b ∈ ([main_v3, main_v6, main_v29, main_arg3, main_arg4, main_arg5, main_arg6, main_arg7] : List (Ref sig .tc)),
    W4 m ρ c (Proc.devRef .tc b) = W3 m ρ c (Proc.devRef .tc b) :=
  fun b hb => W4_of_ne m ρ c b ((by decide : ∀ b ∈ ([main_v3, main_v6, main_v29, main_arg3, main_arg4, main_arg5, main_arg6, main_arg7] : List (Ref sig .tc)), ∀ w, Pipeline.arrRef spec0 w ≠ b) b hb)
/-- The first propagation. -/
theorem step5 : ∀ b ∈ ([main_v3, main_v6, main_v29, main_arg4, main_arg5, main_arg6, main_arg7] : List (Ref sig .tc)),
    W5 m ρ c (Proc.devRef .tc b) = W4 m ρ c (Proc.devRef .tc b) := Stretch.s1_keep (W4 m ρ c)
/-- Region 1 (arrays: the aggregate, the bias row, the hidden layer). -/
theorem step6 : ∀ b ∈ ([main_v3, main_v6, main_v29, main_arg4, main_arg5, main_arg6, main_arg7] : List (Ref sig .tc)),
    W6 m ρ c (Proc.devRef .tc b) = W5 m ρ c (Proc.devRef .tc b) :=
  fun b hb => W6_of_ne m ρ c b ((by decide : ∀ b ∈ ([main_v3, main_v6, main_v29, main_arg4, main_arg5, main_arg6, main_arg7] : List (Ref sig .tc)), ∀ w, Pipeline.arrRef spec1 w ≠ b) b hb)
/-- Region 2 (arrays: the hidden layer, the mean head's weight, its output). -/
theorem step7 : ∀ b ∈ ([main_v3, main_v6, main_v29, main_arg5, main_arg6, main_arg7] : List (Ref sig .tc)),
    W7 m ρ c (Proc.devRef .tc b) = W6 m ρ c (Proc.devRef .tc b) :=
  fun b hb => W7_of_ne m ρ c b ((by decide : ∀ b ∈ ([main_v3, main_v6, main_v29, main_arg5, main_arg6, main_arg7] : List (Ref sig .tc)), ∀ w, Pipeline.arrRef spec2 w ≠ b) b hb)
/-- The mean head's propagation. -/
theorem step8 : ∀ b ∈ ([main_v45, main_v3, main_v6, main_v29, main_arg6, main_arg7] : List (Ref sig .tc)),
    W8 m ρ c (Proc.devRef .tc b) = W7 m ρ c (Proc.devRef .tc b) := Stretch.s3_keep (W7 m ρ c)
/-- Region 3 (arrays: the aggregate, the bias row, the mean head). -/
theorem step9 : ∀ b ∈ ([main_v45, main_v3, main_v6, main_v29, main_arg6, main_arg7] : List (Ref sig .tc)),
    W9 m ρ c (Proc.devRef .tc b) = W8 m ρ c (Proc.devRef .tc b) :=
  fun b hb => W9_of_ne m ρ c b ((by decide : ∀ b ∈ ([main_v45, main_v3, main_v6, main_v29, main_arg6, main_arg7] : List (Ref sig .tc)), ∀ w, Pipeline.arrRef spec3 w ≠ b) b hb)
/-- Region 4 (arrays: the hidden layer, the log-deviation head's weight, its output). -/
theorem step10 : ∀ b ∈ ([main_v61, main_v3, main_v6, main_v29, main_arg7] : List (Ref sig .tc)),
    W10 m ρ c (Proc.devRef .tc b) = W9 m ρ c (Proc.devRef .tc b) :=
  fun b hb => W10_of_ne m ρ c b ((by decide : ∀ b ∈ ([main_v61, main_v3, main_v6, main_v29, main_arg7] : List (Ref sig .tc)), ∀ w, Pipeline.arrRef spec4 w ≠ b) b hb)

/-- Up to the first propagation's entry. -/
theorem carried4 : ∀ b ∈ ([main_v3, main_v6, main_v29, main_arg3, main_arg4, main_arg5, main_arg6, main_arg7] : List (Ref sig .tc)),
    W4 m ρ c (Proc.devRef .tc b) = W3 m ρ c (Proc.devRef .tc b) := step4 m ρ c
/-- Up to the mean head's dense layer's entry. -/
theorem carried6 : ∀ b ∈ ([main_v3, main_v6, main_v29, main_arg4, main_arg5, main_arg6, main_arg7] : List (Ref sig .tc)),
    W6 m ρ c (Proc.devRef .tc b) = W3 m ρ c (Proc.devRef .tc b) :=
  fun b hb => (step6 m ρ c b hb).trans ((step5 m ρ c b hb).trans
    (step4 m ρ c b ((by decide : ∀ b ∈ ([main_v3, main_v6, main_v29, main_arg4, main_arg5, main_arg6, main_arg7] : List (Ref sig .tc)),
      b ∈ ([main_v3, main_v6, main_v29, main_arg3, main_arg4, main_arg5, main_arg6, main_arg7] : List (Ref sig .tc))) b hb)))
/-- Up to the mean head's propagation's entry. -/
theorem carried7 : ∀ b ∈ ([main_v3, main_v6, main_v29, main_arg5, main_arg6, main_arg7] : List (Ref sig .tc)),
    W7 m ρ c (Proc.devRef .tc b) = W3 m ρ c (Proc.devRef .tc b) :=
  fun b hb => (step7 m ρ c b hb).trans
    (carried6 m ρ c b ((by decide : ∀ b ∈ ([main_v3, main_v6, main_v29, main_arg5, main_arg6, main_arg7] : List (Ref sig .tc)),
      b ∈ ([main_v3, main_v6, main_v29, main_arg4, main_arg5, main_arg6, main_arg7] : List (Ref sig .tc))) b hb))
/-- Up to the log-deviation head's dense layer's entry. -/
theorem carried9 : ∀ b ∈ ([main_v3, main_v6, main_v29, main_arg6, main_arg7] : List (Ref sig .tc)),
    W9 m ρ c (Proc.devRef .tc b) = W3 m ρ c (Proc.devRef .tc b) :=
  fun b hb =>
    have h8 : b ∈ ([main_v45, main_v3, main_v6, main_v29, main_arg6, main_arg7] : List (Ref sig .tc)) :=
      (by decide : ∀ b ∈ ([main_v3, main_v6, main_v29, main_arg6, main_arg7] : List (Ref sig .tc)),
        b ∈ ([main_v45, main_v3, main_v6, main_v29, main_arg6, main_arg7] : List (Ref sig .tc))) b hb
    (step9 m ρ c b h8).trans ((step8 m ρ c b h8).trans
      (carried7 m ρ c b ((by decide : ∀ b ∈ ([main_v3, main_v6, main_v29, main_arg6, main_arg7] : List (Ref sig .tc)),
        b ∈ ([main_v3, main_v6, main_v29, main_arg5, main_arg6, main_arg7] : List (Ref sig .tc))) b hb)))
/-- Up to the log-deviation head's propagation's entry. -/
theorem carried10 : ∀ b ∈ ([main_v3, main_v6, main_v29, main_arg7] : List (Ref sig .tc)),
    W10 m ρ c (Proc.devRef .tc b) = W3 m ρ c (Proc.devRef .tc b) :=
  fun b hb => (step10 m ρ c b ((by decide : ∀ b ∈ ([main_v3, main_v6, main_v29, main_arg7] : List (Ref sig .tc)),
      b ∈ ([main_v61, main_v3, main_v6, main_v29, main_arg7] : List (Ref sig .tc))) b hb)).trans
    (carried9 m ρ c b ((by decide : ∀ b ∈ ([main_v3, main_v6, main_v29, main_arg7] : List (Ref sig .tc)),
      b ∈ ([main_v3, main_v6, main_v29, main_arg6, main_arg7] : List (Ref sig .tc))) b hb))

/-! ## Boundary 3: after the opening stretches -/

theorem src3 : W3 m ρ c (Proc.devRef .tc main_v3) = (Cert.Gcn.srcOf (F := Ideal) (m ((c : Thread nD τ).loc main_arg1))) := Stretch.init_src (W0 m ρ c)
theorem dst3 : W3 m ρ c (Proc.devRef .tc main_v6) = (Cert.Gcn.dstOf (F := Ideal) (m ((c : Thread nD τ).loc main_arg1))) := Stretch.init_dst (W0 m ρ c)
theorem norm3 : W3 m ρ c (Proc.devRef .tc main_v29) = (Cert.Gcn.normOf (F := Ideal) (Cert.Gcn.srcOf (F := Ideal) (m ((c : Thread nD τ).loc main_arg1))) (Cert.Gcn.dstOf (F := Ideal) (m ((c : Thread nD τ).loc main_arg1)))) := Stretch.init_norm (W0 m ρ c)
/-- An argument array is still as launched. -/
theorem arg3 : ∀ b ∈ ([main_arg0, main_arg2, main_arg3, main_arg4, main_arg5, main_arg6, main_arg7] : List (Ref sig .tc)),
    W3 m ρ c (Proc.devRef .tc b) = W0 m ρ c (Proc.devRef .tc b) := Stretch.init_keep (W0 m ρ c)

/-! ## The first layer -/

/-- Boundary 4: the first dense layer. -/
theorem dense4 (hR : RegionValues) : W4 m ρ c (Proc.devRef .tc main_v30) = Cert.Gcn.dense1 (F := Ideal) (m ((c : Thread nD τ).loc main_arg0)) (m ((c : Thread nD τ).loc main_arg2)) :=
  (W4_arr m ρ c 2).trans ((hR.dense_in (V3 m ρ) c).trans
    (congrArg₂ (Cert.Gcn.dense1 (F := Ideal)) (arg3 m ρ c main_arg0 (by decide)) (arg3 m ρ c main_arg2 (by decide))))
/-- Boundary 5: its propagation. -/
theorem agg5 (hR : RegionValues) : W5 m ρ c (Proc.devRef .tc main_v43) = Cert.Gcn.prop128 (F := Ideal) (Cert.Gcn.dense1 (F := Ideal) (m ((c : Thread nD τ).loc main_arg0)) (m ((c : Thread nD τ).loc main_arg2))) (Cert.Gcn.srcOf (F := Ideal) (m ((c : Thread nD τ).loc main_arg1))) (Cert.Gcn.dstOf (F := Ideal) (m ((c : Thread nD τ).loc main_arg1))) (Cert.Gcn.normOf (F := Ideal) (Cert.Gcn.srcOf (F := Ideal) (m ((c : Thread nD τ).loc main_arg1))) (Cert.Gcn.dstOf (F := Ideal) (m ((c : Thread nD τ).loc main_arg1)))) :=
  (Stretch.s1_agg (W4 m ρ c)).trans (by
    rw [dense4 m ρ c hR, carried4 m ρ c main_v3 (by decide), carried4 m ρ c main_v6 (by decide), carried4 m ρ c main_v29 (by decide),
      src3 m ρ c, dst3 m ρ c, norm3 m ρ c])
/-- Boundary 5: the first bias as a row. -/
theorem row5 : W5 m ρ c (Proc.devRef .tc main_v44) = Cert.Gcn.row128 (F := Ideal) (m ((c : Thread nD τ).loc main_arg3)) :=
  (Stretch.s1_row (W4 m ρ c)).trans (by
    rw [carried4 m ρ c main_arg3 (by decide), arg3 m ρ c main_arg3 (by decide)]
    exact Stretch.row128_of_reshape _)
/-- Boundary 6: the hidden layer. -/
theorem hidden6 (hR : RegionValues) : W6 m ρ c (Proc.devRef .tc main_v45) = (Cert.Gcn.hiddenOf (F := Ideal) (m ((c : Thread nD τ).loc main_arg0)) (m ((c : Thread nD τ).loc main_arg1)) (m ((c : Thread nD τ).loc main_arg2)) (m ((c : Thread nD τ).loc main_arg3))) :=
  (W6_arr m ρ c 2).trans ((hR.bias_relu (V5 m ρ) c).trans (by
    show Cert.Gcn.biasRelu (F := Ideal) (W5 m ρ c (Proc.devRef .tc main_v43)) (W5 m ρ c (Proc.devRef .tc main_v44)) = _
    rw [agg5 m ρ c hR, row5 m ρ c]
    rfl))

/-! ## The mean head -/

/-- Boundary 7: its dense layer. -/
theorem dense7 (hR : RegionValues) : W7 m ρ c (Proc.devRef .tc main_v46) = Cert.Gcn.dense2 (F := Ideal) (Cert.Gcn.hiddenOf (F := Ideal) (m ((c : Thread nD τ).loc main_arg0)) (m ((c : Thread nD τ).loc main_arg1)) (m ((c : Thread nD τ).loc main_arg2)) (m ((c : Thread nD τ).loc main_arg3))) (m ((c : Thread nD τ).loc main_arg4)) :=
  (W7_arr m ρ c 2).trans ((hR.dense_mean (V6 m ρ) c).trans
    (congrArg₂ (Cert.Gcn.dense2 (F := Ideal)) (hidden6 m ρ c hR)
      ((carried6 m ρ c main_arg4 (by decide)).trans (arg3 m ρ c main_arg4 (by decide)))))
/-- Boundary 7: the hidden layer, that region's input, is left as it was. -/
theorem hidden7 (hR : RegionValues) : W7 m ρ c (Proc.devRef .tc main_v45) = (Cert.Gcn.hiddenOf (F := Ideal) (m ((c : Thread nD τ).loc main_arg0)) (m ((c : Thread nD τ).loc main_arg1)) (m ((c : Thread nD τ).loc main_arg2)) (m ((c : Thread nD τ).loc main_arg3))) :=
  (W7_arr m ρ c 0).trans (((dat2 (V6 m ρ) c).arrAt_in 0 rfl _).trans ((A_eq2 (V6 m ρ) c 0).trans (hidden6 m ρ c hR)))
/-- Boundary 8: its propagation. -/
theorem agg8 (hR : RegionValues) : W8 m ρ c (Proc.devRef .tc main_v59) = Cert.Gcn.prop64 (F := Ideal) (Cert.Gcn.dense2 (F := Ideal) (Cert.Gcn.hiddenOf (F := Ideal) (m ((c : Thread nD τ).loc main_arg0)) (m ((c : Thread nD τ).loc main_arg1)) (m ((c : Thread nD τ).loc main_arg2)) (m ((c : Thread nD τ).loc main_arg3))) (m ((c : Thread nD τ).loc main_arg4))) (Cert.Gcn.srcOf (F := Ideal) (m ((c : Thread nD τ).loc main_arg1))) (Cert.Gcn.dstOf (F := Ideal) (m ((c : Thread nD τ).loc main_arg1))) (Cert.Gcn.normOf (F := Ideal) (Cert.Gcn.srcOf (F := Ideal) (m ((c : Thread nD τ).loc main_arg1))) (Cert.Gcn.dstOf (F := Ideal) (m ((c : Thread nD τ).loc main_arg1)))) :=
  (Stretch.s3_agg (W7 m ρ c)).trans (by
    rw [dense7 m ρ c hR, carried7 m ρ c main_v3 (by decide), carried7 m ρ c main_v6 (by decide), carried7 m ρ c main_v29 (by decide),
      src3 m ρ c, dst3 m ρ c, norm3 m ρ c])
/-- Boundary 8: its bias as a row. -/
theorem row8 : W8 m ρ c (Proc.devRef .tc main_v60) = Cert.Gcn.row64 (F := Ideal) (m ((c : Thread nD τ).loc main_arg5)) :=
  (Stretch.s3_row (W7 m ρ c)).trans (by
    rw [carried7 m ρ c main_arg5 (by decide), arg3 m ρ c main_arg5 (by decide)]
    exact Stretch.row64_of_reshape _)
/-- Boundary 9: the mean head. -/
theorem mean9 (hR : RegionValues) : W9 m ρ c (Proc.devRef .tc main_v61) = Cert.Gcn.muOf (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((hR.bias_mean (V8 m ρ) c).trans (by
    show Cert.Gcn.bias64 (F := Ideal) (W8 m ρ c (Proc.devRef .tc main_v59)) (W8 m ρ c (Proc.devRef .tc main_v60)) = _
    rw [agg8 m ρ c hR, row8 m ρ c]
    rfl))
/-- Boundary 9: the hidden layer is still there for the other head. -/
theorem hidden9 (hR : RegionValues) : W9 m ρ c (Proc.devRef .tc main_v45) = (Cert.Gcn.hiddenOf (F := Ideal) (m ((c : Thread nD τ).loc main_arg0)) (m ((c : Thread nD τ).loc main_arg1)) (m ((c : Thread nD τ).loc main_arg2)) (m ((c : Thread nD τ).loc main_arg3))) :=
  (step9 m ρ c main_v45 (by decide)).trans ((step8 m ρ c main_v45 (by decide)).trans (hidden7 m ρ c hR))

/-! ## The log-deviation head -/

/-- Boundary 10: its dense layer. -/
theorem dense10 (hR : RegionValues) : W10 m ρ c (Proc.devRef .tc main_v62) = Cert.Gcn.dense2 (F := Ideal) (Cert.Gcn.hiddenOf (F := Ideal) (m ((c : Thread nD τ).loc main_arg0)) (m ((c : Thread nD τ).loc main_arg1)) (m ((c : Thread nD τ).loc main_arg2)) (m ((c : Thread nD τ).loc main_arg3))) (m ((c : Thread nD τ).loc main_arg6)) :=
  (W10_arr m ρ c 2).trans ((hR.dense_dev (V9 m ρ) c).trans
    (congrArg₂ (Cert.Gcn.dense2 (F := Ideal)) (hidden9 m ρ c hR)
      ((carried9 m ρ c main_arg6 (by decide)).trans (arg3 m ρ c main_arg6 (by decide)))))
/-- Boundary 11: its propagation. -/
theorem agg11 (hR : RegionValues) : W11 m ρ c (Proc.devRef .tc main_v75) = Cert.Gcn.prop64 (F := Ideal) (Cert.Gcn.dense2 (F := Ideal) (Cert.Gcn.hiddenOf (F := Ideal) (m ((c : Thread nD τ).loc main_arg0)) (m ((c : Thread nD τ).loc main_arg1)) (m ((c : Thread nD τ).loc main_arg2)) (m ((c : Thread nD τ).loc main_arg3))) (m ((c : Thread nD τ).loc main_arg6))) (Cert.Gcn.srcOf (F := Ideal) (m ((c : Thread nD τ).loc main_arg1))) (Cert.Gcn.dstOf (F := Ideal) (m ((c : Thread nD τ).loc main_arg1))) (Cert.Gcn.normOf (F := Ideal) (Cert.Gcn.srcOf (F := Ideal) (m ((c : Thread nD τ).loc main_arg1))) (Cert.Gcn.dstOf (F := Ideal) (m ((c : Thread nD τ).loc main_arg1)))) :=
  (Stretch.s5_agg (W10 m ρ c)).trans (by
    rw [dense10 m ρ c hR, carried10 m ρ c main_v3 (by decide), carried10 m ρ c main_v6 (by decide), carried10 m ρ c main_v29 (by decide),
      src3 m ρ c, dst3 m ρ c, norm3 m ρ c])
/-- Boundary 11: its bias as a row. -/
theorem row11 : W11 m ρ c (Proc.devRef .tc main_v76) = Cert.Gcn.row64 (F := Ideal) (m ((c : Thread nD τ).loc main_arg7)) :=
  (Stretch.s5_row (W10 m ρ c)).trans (by
    rw [carried10 m ρ c main_arg7 (by decide), arg3 m ρ c main_arg7 (by decide)]
    exact Stretch.row64_of_reshape _)

/-! ## The last boundary: the two results -/

/-- The log-deviation head, the last region's output. -/
theorem result_logstd (hR : RegionValues) : W12 m ρ c (Proc.devRef .tc main_v77) = Cert.Gcn.logstdOf (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) :=
  (W12_arr m ρ c 2).trans ((hR.bias_min (V11 m ρ) c).trans (by
    show Cert.Gcn.biasMin64 (F := Ideal) (W11 m ρ c (Proc.devRef .tc main_v75)) (W11 m ρ c (Proc.devRef .tc main_v76)) = _
    rw [agg11 m ρ c hR, row11 m ρ c]
    rfl))
/-- The mean head: written by region 3 and by nothing after it. -/
theorem result_mean (hR : RegionValues) : W12 m ρ c (Proc.devRef .tc main_v61) = Cert.Gcn.muOf (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W12_of_ne m ρ c main_v61 (by decide)).trans ((Stretch.s5_keep (W10 m ρ c)).trans
    ((step10 m ρ c main_v61 (by decide)).trans (mean9 m ρ c hR)))

end Cert.KernelIdeal.Fold

end
-- ==== Proof.RefSide.lean ====
/-
  The reference's two results are the specification's two heads. Its run ends with each result at the
  composed term of its host operations over the arguments; that term is, operation for operation, the
  dense layers, the propagation and the bias steps of `Cert.Gcn` applied to the edge list and weights
  built from the edge array, so the two are equal by unfolding the definitions (for any float family).
-/
import proofs.«158724_j65481071395096_1_alg».proof.Proof.RefRun
import proofs.«158724_j65481071395096_1_alg».proof.Proof.Spec

set_option maxRecDepth 16384

noncomputable section

namespace Cert.ReferenceIdeal.RefSide

open Cert.ReferenceIdeal Cert.ReferenceIdeal.Gen Idealize.ShloMosaic Idealize.ShloMosaic.TcCoe Idealize.SL.Sem

variable {F : FTy → Type} [FloatOps F] (m : (ℓ : Loc nD τ sig) → Buf (Elt F) ℓ) (c : Dev nD)

/-- The first result is the mean head. -/
theorem mean_eq : Cert.ReferenceIdeal.ValueP.res_main_v64 m c
    = Cert.Gcn.muOf (F := F) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  unfold Cert.ReferenceIdeal.ValueP.res_main_v64
  rfl

/-- The second result is the log-deviation head. -/
theorem logstd_eq : Cert.ReferenceIdeal.ValueP.res_main_v83 m c
    = Cert.Gcn.logstdOf (F := F) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg6)) (m ((c.tc : Thread nD τ).loc main_arg7)) := by
  unfold Cert.ReferenceIdeal.ValueP.res_main_v83
  rfl

end Cert.ReferenceIdeal.RefSide

end
-- ==== Proof.Region0.lean ====
/- Region 0 of the kernel's program: the first dense layer, nodes × 64 by 64 × 128. Each of the ten grid
   points multiplies its block of 10000 rows by the whole weight into a zero accumulator; the blocks
   tile the rows, so the array the region leaves is the host's product of the whole operands. -/
import proofs.«158724_j65481071395096_1_alg».proof.Proof.Gen.KernelIdeal.Frame
import proofs.«158724_j65481071395096_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! ## The body's product at an index of the block -/

/-- The left factor's row is the output's row. -/
theorem lhsK_0 (i : S10000x128.Idx) (q : dot_S10000x64_S64x128_S10000x128_1_0_0_1_n_n.contr.Idx) : (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
/-- The left factor's column is the contracted channel. -/
theorem lhsK_1 (i : S10000x128.Idx) (q : dot_S10000x64_S64x128_S10000x128_1_0_0_1_n_n.contr.Idx) : (dot_S10000x64_S64x128_S10000x128_1_0_0_1_n_n.lhsIdx i q 1).val = (q ⟨0, by decide⟩).val :=
  dot_S10000x64_S64x128_S10000x128_1_0_0_1_n_n.lhsIdx_val_of_single rfl i q
/-- The right factor's row is the contracted channel. -/
theorem rhsK_0 (i : S10000x128.Idx) (q : dot_S10000x64_S64x128_S10000x128_1_0_0_1_n_n.contr.Idx) : (dot_S10000x64_S64x128_S10000x128_1_0_0_1_n_n.rhsIdx i q 0).val = (q ⟨0, by decide⟩).val :=
  dot_S10000x64_S64x128_S10000x128_1_0_0_1_n_n.rhsIdx_val_of_single rfl i q
/-- The right factor's column is the output's column. -/
theorem rhsK_1 (i : S10000x128.Idx) (q : dot_S10000x64_S64x128_S10000x128_1_0_0_1_n_n.contr.Idx) : (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- Entry (p, q) of what the body stores: the plain sum over the 64 channels of row p of the row block against
    column q of the weight (the narrowing to bf16 is the identity on the extended reals, the accumulator is zero). -/
theorem pay_apply (x0 : Vec Ideal S10000x64 .f32) (x1 : Vec Ideal S64x128 .f32) (p : Fin 10000) (q : Fin 128) :
    k0_pay1 x0 x1 (ValueIdx.ix2 p q) = ∑ k : Fin 64, x0 (ValueIdx.ix2 p k) * x1 (ValueIdx.ix2 k q) := by
  unfold k0_pay1
  refine (Ideal.matmul_constant_zero_apply dot_S10000x64_S64x128_S10000x128_1_0_0_1_n_n none _ _ (ValueIdx.ix2 p q)).trans ?_
  rw [← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx (ValueIdx.ix2 p q) ((ValueIdx.contrEquiv1 dot_S10000x64_S64x128_S10000x128_1_0_0_1_n_n 64 rfl rfl).symm k) = ValueIdx.ix2 p k := funext fun a => Fin.ext (by
    match a with
    | ⟨0, _⟩ => exact lhsK_0 _ _
    | ⟨1, _⟩ => exact (lhsK_1 _ _).trans hk)
  have er : dot_S10000x64_S64x128_S10000x128_1_0_0_1_n_n.rhsIdx (ValueIdx.ix2 p q) ((ValueIdx.contrEquiv1 dot_S10000x64_S64x128_S10000x128_1_0_0_1_n_n 64 rfl rfl).symm k) = ValueIdx.ix2 k q := funext fun a => Fin.ext (by
    match a with
    | ⟨0, _⟩ => exact (rhsK_0 _ _).trans hk
    | ⟨1, _⟩ => exact rhsK_1 _ _)
  show x0 (dot_S10000x64_S64x128_S10000x128_1_0_0_1_n_n.lhsIdx (ValueIdx.ix2 p q) ((ValueIdx.contrEquiv1 dot_S10000x64_S64x128_S10000x128_1_0_0_1_n_n 64 rfl rfl).symm k)) * x1 (dot_S10000x64_S64x128_S10000x128_1_0_0_1_n_n.rhsIdx (ValueIdx.ix2 p q) ((ValueIdx.contrEquiv1 dot_S10000x64_S64x128_S10000x128_1_0_0_1_n_n 64 rfl rfl).symm k)) = _
  rw [el, er]

/-! ## The grid's index maps -/

theorem hz : (![0, 0] : Fin 2 → Nat) = fun _ => 0 := funext fun a => by fin_cases a <;> rfl

/-- The printed index maps, decided over the ten grid points: the row block read and the row block written are the
    same block of rows, both in column block 0; the weight is always block (0, 0); the row block's index is at most 9. -/
theorem idx_facts : ∀ t : Fin cfg0.N, win0_0.index t (0 : Fin 2) = win0_2.index t (0 : Fin 2)
    ∧ win0_0.index t (1 : Fin 2) = 0
    ∧ win0_2.index t (1 : Fin 2) = 0
    ∧ win0_1.index t (0 : Fin 2) = 0
    ∧ win0_1.index t (1 : Fin 2) = 0
    ∧ win0_2.index t (0 : Fin 2) ≤ 9 :=
  (by decide +kernel : ∀ t : Fin grid0.N, _)

/-- Every one of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-! ## One point's block -/

/-- At entry (p, q) of a block: when row p of the loaded row block is row `i 0` of the whole left factor and column q
    of the loaded weight is column `i 1` of the whole right factor, the body's product there is the host's product
    at `i` (the same sum over the 64 channels, term by term). -/
theorem point_eq (x0 : Vec Ideal S10000x64 .f32) (x1 : Vec Ideal S64x128 .f32)
    (X : (⟨S100000x64, .f32⟩ : BufTy).Contents (Elt Ideal)) (W : (⟨S64x128, .f32⟩ : BufTy).Contents (Elt Ideal))
    (i : S100000x128.Idx) (p : Fin 10000) (q : Fin 128)
    (h0 : ∀ k : Fin 64, x0 (ValueIdx.ix2 p k) = X (Cert.Gcn.lrow1 i k))
    (h1 : ∀ k : Fin 64, x1 (ValueIdx.ix2 k q) = W (Cert.Gcn.rcol1 i k)) :
    k0_pay1 x0 x1 (ValueIdx.ix2 p q) = Cert.Gcn.dense1 (F := Ideal) X W i := by
  rw [pay_apply, Cert.Gcn.dense1_apply]
  exact Finset.sum_congr rfl fun k _ => by rw [h0 k, h1 k]

/-- What point `t` writes back is block `t` of the host's product of the whole operands as the region finds them. -/
theorem flushed_eq (c : Dev nD) (t : Fin cfg0.N) :
    (dat0 (F := Ideal) V c).flushed 2 t = ((cfg0.win 2).blk t).view.read (Elt Ideal) (Cert.Gcn.dense1 (F := Ideal) (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S10000x64) hz, View.ld_unit_zero (S := S64x128) hz]
  obtain ⟨e0, e1, e2, e3, e4, e5⟩ := idx_facts t
  funext j
  obtain ⟨p, q, rfl⟩ : ∃ (p : Fin 10000) (q : Fin 128), j = ValueIdx.ix2 p q := ⟨j 0, j 1, ValueIdx.eq_ix2 (n0 := 10000) (n1 := 128) j⟩
  rw [View.read_apply]
  refine point_eq (iblk0 V c 0 t) (iblk0 V c 1 t) (V c main_arg0) (V c main_arg2) _ p q (fun k => ?_) (fun k => ?_)
  · -- row p of the row block is row (block index) × 10000 + p of the left factor, the same row the output's entry is in
    have h : ((cfg0.win 0).blk t).view.emb (ValueIdx.ix2 p k) = Cert.Gcn.lrow1 (((cfg0.win 2).blk t).view.emb (ValueIdx.ix2 p q)) k := by
      funext a; apply Fin.ext
      match a with
      | ⟨0, _⟩ => show win0_0.index t (0 : Fin 2) * 10000 + 1 * p.val = win0_2.index t (0 : Fin 2) * 10000 + 1 * p.val; omega
      | ⟨1, _⟩ => show win0_0.index t (1 : Fin 2) * 64 + 1 * k.val = k.val; omega
    show V c main_arg0 (((cfg0.win 0).blk t).view.emb (ValueIdx.ix2 p k)) = _
    rw [h]
  · -- the weight is staged whole: its entry (k, q) is the right factor's, in the column the output's entry is in
    have h : ((cfg0.win 1).blk t).view.emb (ValueIdx.ix2 k q) = Cert.Gcn.rcol1 (((cfg0.win 2).blk t).view.emb (ValueIdx.ix2 p q)) k := by
      funext a; apply Fin.ext
      match a with
      | ⟨0, _⟩ => show win0_1.index t (0 : Fin 2) * 64 + 1 * k.val = k.val; omega
      | ⟨1, _⟩ => show win0_1.index t (1 : Fin 2) * 128 + 1 * q.val = win0_2.index t (1 : Fin 2) * 128 + 1 * q.val; omega
    show V c main_arg2 (((cfg0.win 1).blk t).view.emb (ValueIdx.ix2 k q)) = _
    rw [h]

/-! ## The blocks tile the rows -/

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Row r lies in the block of the point whose row block is r / 10000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-! ## The array the region leaves -/

theorem out (c : Dev nD) :
    (dat0 (F := Ideal) V c).arrAt 2 cfg0.N = Cert.Gcn.dense1 (F := Ideal) (V c main_arg0) (V c main_arg2) := by
  exact (dat0 (F := Ideal) V c).arrAt_eq_of_cover 2 _ (fun t _ => flushed_eq V c t) cover

end Cert.KernelIdeal.Region0

end
-- ==== Proof.Region1.lean ====
/- Region 1 of the kernel's program: the bias row added to every row of the propagated features, then the
   maximum with zero. Each of the ten grid points writes back rows 10000·t … 10000·t + 9999 of that function of
   the two arrays the region reads, and the ten row blocks fill the output array. -/
import proofs.«158724_j65481071395096_1_alg».proof.Proof.Gen.KernelIdeal.Frame
import proofs.«158724_j65481071395096_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The zero offsets of a whole-block access, however spelt. -/
theorem hz : (![0, 0] : Fin 2 → Nat) = fun _ => 0 := funext fun a => by fin_cases a <;> rfl

/-- Entry (p, q) of what the body stores: the block's entry plus the bias row's entry in column q, against zero. -/
theorem pay_apply (x0 : Vec Ideal S10000x128 .f32) (x1 : Vec Ideal S1x128 .f32) (p : Fin 10000) (q : Fin 128) :
    k1_pay1 (F := Ideal) x0 x1 (ValueIdx.ix2 p q)
      = FloatOps.maximumf (F := Ideal) (FloatOps.addf (F := Ideal) (x0 (ValueIdx.ix2 p q)) (x1 (ValueIdx.ix2 (0 : Fin 1) q))) (FloatOps.ofBits .f32 0x00000000#32) := by
  unfold k1_pay1
  show FloatOps.maximumf (F := Ideal) (FloatOps.addf (F := Ideal) (shapeCast S10000x128 x0 shapeCasts_S10000x128_S10000x128 (ValueIdx.ix2 p q))
      (broadcastTo S10000x128 (shapeCast S1x128 x1 shapeCasts_S1x128_S1x128) broadcasts_S1x128_S10000x128 (ValueIdx.ix2 p q)))
    (FloatOps.ofBits .f32 0x00000000#32) = _
  rw [shapeCast_self, shapeCast_self]
  exact congrArg (fun z => FloatOps.maximumf (F := Ideal) (FloatOps.addf (F := Ideal) (x0 (ValueIdx.ix2 p q)) z) (FloatOps.ofBits .f32 0x00000000#32))
    (ValueIdx.broadcastTo_1b_ab_apply x1 broadcasts_S1x128_S10000x128 p q)

/-- The printed index maps, decided over the grid: the row block read and the row block written are the same one,
    in the one column block; the bias row is block (0, 0) at every point; the row block's index is at most 9. -/
theorem idx_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) ≤ 9 :=
  (by decide +kernel : ∀ t : Fin grid1.N, _)

/-- Every one of the ten row blocks is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point t writes back is block t of the bias-and-maximum of the two arrays as the region finds them. -/
theorem flushed_eq (c : Dev nD) (t : Fin cfg1.N) :
    (dat1 (F := Ideal) V c).flushed 2 t
      = ((cfg1.win 2).blk t).view.read (Elt Ideal) (Cert.Gcn.biasRelu (F := Ideal) (V c main_v43) (V c main_v44)) := by
  show (cfg1.win 2).cut (grid1.coords t) ((dat1 (F := Ideal) V c).after 2 t) = _
  rw [after1_2]
  unfold out1_2
  rw [View.canon_unit_zero hz]
  simp only [View.ld_unit_zero (S := S10000x128) hz, View.ld_unit_zero (S := S1x128) hz]
  obtain ⟨e0, e1, e2, e3, e4, e5⟩ := idx_facts t
  funext j
  obtain ⟨p, q, rfl⟩ : ∃ (p : Fin 10000) (q : Fin 128), j = ValueIdx.ix2 p q := ⟨j 0, j 1, ValueIdx.eq_ix2 j⟩
  -- the row block read and the row block written sit over the same rows and columns of their arrays
  have h0 : ((cfg1.win 0).blk t).view.emb (ValueIdx.ix2 p q) = ((cfg1.win 2).blk t).view.emb (ValueIdx.ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  -- the bias row's entry in column q is the array's one row at the written entry's column
  have h1 : ((cfg1.win 1).blk t).view.emb (ValueIdx.ix2 (0 : Fin 1) q)
      = Cert.Gcn.rowAt128 (((cfg1.win 2).blk t).view.emb (ValueIdx.ix2 p q)) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  show k1_pay1 (F := Ideal) (iblk1 V c 0 t) (iblk1 V c 1 t) (ValueIdx.ix2 p q)
    = Cert.Gcn.biasRelu (F := Ideal) (V c main_v43) (V c main_v44) (((cfg1.win 2).blk t).view.emb (ValueIdx.ix2 p q))
  refine (pay_apply (iblk1 V c 0 t) (iblk1 V c 1 t) p q).trans ?_
  rw [Cert.Gcn.biasRelu_apply]
  show FloatOps.maximumf (F := Ideal) (FloatOps.addf (F := Ideal) (V c main_v43 (((cfg1.win 0).blk t).view.emb (ValueIdx.ix2 p q)))
      (V c main_v44 (((cfg1.win 1).blk t).view.emb (ValueIdx.ix2 (0 : Fin 1) q)))) (FloatOps.ofBits .f32 0x00000000#32) = _
  rw [h0, h1]

/-- An index of the array is in point t's block iff each coordinate is in the block's range on its axis. -/
theorem mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v45).slice (win1_2.rect t)).set ↔ _
  rw [View.set_slice_whole, Rect.mem_set_unit]
  exact Iff.rfl

/-- Every index of the array is in some point's block: row r is in the block of the point whose row block is r / 10000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The array after the region: the bias row added to every row of the array read, against zero. -/
theorem out (c : Dev nD) :
    (dat1 (F := Ideal) V c).arrAt 2 cfg1.N = Cert.Gcn.biasRelu (F := Ideal) (V c main_v43) (V c main_v44) :=
  (dat1 (F := Ideal) V c).arrAt_eq_of_cover 2 _ (fun t _ => flushed_eq V c t) cover

end Cert.KernelIdeal.Region1

end
-- ==== Proof.Region2.lean ====
/- Region 2: the mean head's dense layer. Each grid point multiplies its block of 10000 rows of the hidden layer by the whole 128 × 64 weight into a zero accumulator; over the extended reals the bf16 copies are the values themselves and the product is the plain sum over the 128 hidden channels, so the ten row blocks together are the host's matrix product of the two arrays as the region found them. -/
import proofs.«158724_j65481071395096_1_alg».proof.Proof.Gen.KernelIdeal.Frame
import proofs.«158724_j65481071395096_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The zero offsets, as a function. -/
theorem zeros : (![0, 0] : Fin 2 → Nat) = fun _ => 0 := funext fun a => by fin_cases a <;> rfl

/-! ## The block product's operand indices, axis by axis -/

/-- The left operand's row is the output's row. -/
theorem lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column is the contracted channel. -/
theorem lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row is the contracted channel. -/
theorem rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column is the output's column. -/
theorem rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-! ## The body's payload at an index -/

/-- Entry (p, q) of the block the body stores is the sum over the 128 hidden channels of the row block's entry
    (p, k) times the weight's entry (k, q): the narrowing to bf16 is the identity on extended reals, the shape
    cast is to the same shape, and the accumulator is the zero splat. -/
theorem pay_apply (x0 : Vec Ideal S10000x128 .f32) (x1 : Vec Ideal S128x64 .f32) (p : Fin 10000) (q : Fin 64) :
    k2_pay1 (F := Ideal) x0 x1 (ValueIdx.ix2 p q) = ∑ k : Fin 128, x0 (ValueIdx.ix2 p k) * x1 (ValueIdx.ix2 k q) := by
  unfold k2_pay1
  simp only [matmul]
  refine (Ideal.matmul_constant_zero_apply dot_S10000x128_S128x64_S10000x64_1_0_0_1_n_n none _ _ (ValueIdx.ix2 p q)).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ValueIdx.ix2 p q) ((ValueIdx.contrEquiv1 dot_S10000x128_S128x64_S10000x64_1_0_0_1_n_n 128 rfl rfl).symm k) = ValueIdx.ix2 p k := funext fun a => Fin.ext (by
    match a with
    | ⟨0, _⟩ => exact lhs_0 _ _
    | ⟨1, _⟩ => exact (lhs_1 _ _).trans hk)
  have er : dot_S10000x128_S128x64_S10000x64_1_0_0_1_n_n.rhsIdx (ValueIdx.ix2 p q) ((ValueIdx.contrEquiv1 dot_S10000x128_S128x64_S10000x64_1_0_0_1_n_n 128 rfl rfl).symm k) = ValueIdx.ix2 k q := funext fun a => Fin.ext (by
    match a with
    | ⟨0, _⟩ => exact (rhs_0 _ _).trans hk
    | ⟨1, _⟩ => exact rhs_1 _ _)
  rw [el, er, shapeCast_self]
  rfl

/-- The same at any index of the block. -/
theorem pay_at (x0 : Vec Ideal S10000x128 .f32) (x1 : Vec Ideal S128x64 .f32) (j : S10000x64.Idx) :
    k2_pay1 (F := Ideal) x0 x1 j = ∑ k : Fin 128, x0 (ValueIdx.ix2 (j 0) k) * x1 (ValueIdx.ix2 k (j 1)) :=
  (congrArg (k2_pay1 (F := Ideal) x0 x1) (ValueIdx.eq_ix2 j)).trans (pay_apply x0 x1 (j 0) (j 1))

/-! ## The windows' index maps over the grid -/

/-- Point t reads row block t of the activations and the whole weight, and writes row block t of the result. -/
theorem idx_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) ≤ 9 :=
  (by decide +kernel : ∀ t : Fin grid2.N, _)

/-- Every one of the ten row blocks of the result is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-! ## What a point writes back -/

/-- Point t writes back block t of the dense layer of the arrays as the region finds them: at row p of the block
    and column q both sides are the sum over the hidden channels k of the activation at (10000·t + p, k) times
    the weight at (k, q). -/
theorem flushed_eq (c : Dev nD) (t : Fin cfg2.N) :
    (dat2 (F := Ideal) V c).flushed 2 t = ((cfg2.win 2).blk t).view.read (Elt Ideal) (Cert.Gcn.dense2 (F := Ideal) (V c main_v45) (V c main_arg4)) := by
  show (cfg2.win 2).cut (grid2.coords t) ((dat2 (F := Ideal) V c).after 2 t) = _
  rw [after2_2]
  unfold out2_2
  rw [View.canon_unit_zero zeros]
  simp only [View.ld_unit_zero (S := S10000x128) zeros, View.ld_unit_zero (S := S128x64) zeros]
  obtain ⟨e0, e1, e2, e3, e4, e5⟩ := idx_facts t
  funext j
  show k2_pay1 (F := Ideal) (iblk2 V c 0 t) (iblk2 V c 1 t) j
    = Cert.Gcn.dense2 (F := Ideal) (V c main_v45) (V c main_arg4) (((cfg2.win 2).blk t).view.emb j)
  refine (pay_at _ _ j).trans ((Finset.sum_congr rfl fun k _ => ?_).trans (Cert.Gcn.dense2_apply _ _ _).symm)
  have hj0 : (j 0).val < 10000 := (j 0).isLt
  have hj1 : (j 1).val < 64 := (j 1).isLt
  have hk : k.val < 128 := k.isLt
  have h0 : ((cfg2.win 0).blk t).view.emb (ValueIdx.ix2 (j 0) k) = Cert.Gcn.lrow2 (((cfg2.win 2).blk t).view.emb j) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  have h1 : ((cfg2.win 1).blk t).view.emb (ValueIdx.ix2 k (j 1)) = Cert.Gcn.rcol2 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  have hX : ∀ (X : (⟨S100000x128, .f32⟩ : BufTy).Contents (Elt Ideal)) (W : (⟨S128x64, .f32⟩ : BufTy).Contents (Elt Ideal)),
      X (((cfg2.win 0).blk t).view.emb (ValueIdx.ix2 (j 0) k)) * W (((cfg2.win 1).blk t).view.emb (ValueIdx.ix2 k (j 1)))
        = X (Cert.Gcn.lrow2 (((cfg2.win 2).blk t).view.emb j) k) * W (Cert.Gcn.rcol2 (((cfg2.win 2).blk t).view.emb j) k) :=
    fun X W => by rw [h0, h1]
  exact hX (V c main_v45) (V c main_arg4)

/-! ## The blocks cover the result -/

/-- An index of the result is in point t's block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Row r of the result lies in the block of the point that writes row block r / 10000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-! ## The result array after the region -/

theorem out (c : Dev nD) :
    (dat2 (F := Ideal) V c).arrAt 2 cfg2.N = Cert.Gcn.dense2 (F := Ideal) (V c main_v45) (V c main_arg4) := by
  exact (dat2 (F := Ideal) V c).arrAt_eq_of_cover 2 _ (fun t _ => flushed_eq V c t) cover

end Cert.KernelIdeal.Region2

end
-- ==== Proof.Region3.lean ====
/-
  Region 3 of the kernel's program: the bias row added to every row, at width 64. The grid has ten points; point t loads rows
  10000·t … 10000·t + 9999 of the 100000 × 64 array, and the one bias row whole, and writes back the same
  rows of the result. So the result array is the array it reads plus the bias row in every row, index by index: the body's value at a block index,
  the block's place in the array, and the cover of the array by the ten row blocks.
-/
import proofs.«158724_j65481071395096_1_alg».proof.Proof.Gen.KernelIdeal.Frame
import proofs.«158724_j65481071395096_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The body's loads and its store are at offsets zero. -/
theorem zero_offsets : (![0, 0] : Fin 2 → Nat) = fun _ => 0 := funext fun a => by fin_cases a <;> rfl

/-- The bias row broadcast over the block's rows, read at row p and column q, is the row's entry in column q. -/
theorem row_bcast_at (x1 : Vec Ideal S1x64 .f32) (p : Fin 10000) (q : Fin 64) :
    broadcastTo S10000x64 x1 broadcasts_S1x64_S10000x64 (ix2 p q) = x1 (ix2 (0 : Fin 1) q) :=
  broadcastTo_apply x1 broadcasts_S1x64_S10000x64 (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The body's value at row p and column q of its block: the block's entry plus the bias row's entry in that column. -/
theorem pay_at (x0 : Vec Ideal S10000x64 .f32) (x1 : Vec Ideal S1x64 .f32) (p : Fin 10000) (q : Fin 64) :
    k3_pay1 x0 x1 (ix2 p q) = FloatOps.addf (F := Ideal) (φ := .f32) (x0 (ix2 p q)) (x1 (ix2 (0 : Fin 1) q)) := by
  unfold k3_pay1
  show FloatOps.addf (F := Ideal) (φ := .f32) (shapeCast S10000x64 x0 shapeCasts_S10000x64_S10000x64 (ix2 p q))
      (broadcastTo S10000x64 (shapeCast S1x64 x1 shapeCasts_S1x64_S1x64) broadcasts_S1x64_S10000x64 (ix2 p q)) = _
  rw [shapeCast_self, shapeCast_self, row_bcast_at]

/-- The same at any index of the block, by its two coordinates. -/
theorem pay_apply (x0 : Vec Ideal S10000x64 .f32) (x1 : Vec Ideal S1x64 .f32) (y : S10000x64.Idx) :
    k3_pay1 x0 x1 y = FloatOps.addf (F := Ideal) (φ := .f32) (x0 y) (x1 (ix2 (0 : Fin 1) ⟨(y 1).val, (y 1).isLt⟩)) := by
  obtain ⟨p, q, rfl⟩ : ∃ (p : Fin 10000) (q : Fin 64), y = ix2 p q := ⟨y 0, y 1, eq_ix2 y⟩
  exact pay_at x0 x1 p q

/-- The printed index maps, decided over the grid: the row block read and the row block written have the same
    block index on both axes, the column index being zero; the bias row's block index is zero on both axes; the
    output's row-block index is at most nine. -/
theorem index_maps : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) ≤ 9 :=
  (by decide +kernel : ∀ t : Fin grid3.N, _)

/-- Every one of the ten row blocks is some point's. -/
theorem index_onto : ∀ q0 : Fin 10, ∃ t : Fin cfg3.N, win3_2.index t = ![q0.val, 0] :=
  (by decide +kernel : ∀ q0 : Fin 10, ∃ t : Fin grid3.N, win3_2.index t = ![q0.val, 0])

/-- What point t writes back is block t of the specification's function of the two arrays as the region finds them. -/
theorem flushed_eq (c : Dev nD) (t : Fin cfg3.N) :
    (dat3 (F := Ideal) V c).flushed 2 t
      = ((cfg3.win 2).blk t).view.read (Elt Ideal) (Cert.Gcn.bias64 (F := Ideal) (V c main_v59) (V c main_v60)) := by
  show (cfg3.win 2).cut (grid3.coords t) ((dat3 V c).after 2 t) = _
  rw [after3_2]
  unfold out3_2
  rw [View.canon_unit_zero zero_offsets]
  simp only [View.ld_unit_zero (S := S10000x64) zero_offsets, View.ld_unit_zero (S := S1x64) zero_offsets]
  obtain ⟨e0, e1, e2, e3, e4, e5⟩ := index_maps t
  funext j
  refine (pay_apply (iblk3 V c 0 t) (iblk3 V c 1 t) _).trans ?_
  refine Eq.trans ?_ (Cert.Gcn.bias64_apply (V c main_v59) (V c main_v60) (((cfg3.win 2).blk t).view.emb j)).symm
  have hj0 : (j 0).val < 10000 := (j 0).isLt
  have hj1 : (j 1).val < 64 := (j 1).isLt
  -- the element of the row block read sits where the element of the row block written does
  have h0 : ((cfg3.win 0).blk t).view.emb ((cfg3.win 2).xinj (grid3.coords t) j) = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  -- the bias row's element is the one in the written element's column
  have h1 : ((cfg3.win 1).blk t).view.emb (ix2 (0 : Fin 1) ⟨(j 1).val, hj1⟩) = Cert.Gcn.rowAt64 (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  show FloatOps.addf (F := Ideal) (φ := .f32) (V c main_v59 (((cfg3.win 0).blk t).view.emb ((cfg3.win 2).xinj (grid3.coords t) j)))
      (V c main_v60 (((cfg3.win 1).blk t).view.emb (ix2 (0 : Fin 1) ⟨(j 1).val, hj1⟩))) = _
  rw [h0, h1]

/-- An index of the array is in point t's block iff each coordinate is in the block's range on its axis. -/
theorem mem_block (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- The ten row blocks cover the array: row r is in the block of the point whose row-block index is r / 10000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

theorem out (c : Dev nD) :
    (dat3 (F := Ideal) V c).arrAt 2 cfg3.N = Cert.Gcn.bias64 (F := Ideal) (V c main_v59) (V c main_v60) :=
  (dat3 (F := Ideal) V c).arrAt_eq_of_cover 2 _ (fun t _ => flushed_eq V c t) cover

end Cert.KernelIdeal.Region3

end
-- ==== Proof.Region4.lean ====
/- Region 4: the log-deviation head's dense layer. Each grid point multiplies its block of 10000 rows of the hidden layer by the whole 128 × 64 weight into a zero accumulator; over the extended reals the bf16 copies are the values themselves and the product is the plain sum over the 128 hidden channels, so the ten row blocks together are the host's matrix product of the two arrays as the region found them. -/
import proofs.«158724_j65481071395096_1_alg».proof.Proof.Gen.KernelIdeal.Frame
import proofs.«158724_j65481071395096_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The zero offsets, as a function. -/
theorem zeros : (![0, 0] : Fin 2 → Nat) = fun _ => 0 := funext fun a => by fin_cases a <;> rfl

/-! ## The block product's operand indices, axis by axis -/

/-- The left operand's row is the output's row. -/
theorem lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column is the contracted channel. -/
theorem lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row is the contracted channel. -/
theorem rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column is the output's column. -/
theorem rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-! ## The body's payload at an index -/

/-- Entry (p, q) of the block the body stores is the sum over the 128 hidden channels of the row block's entry
    (p, k) times the weight's entry (k, q): the narrowing to bf16 is the identity on extended reals, the shape
    cast is to the same shape, and the accumulator is the zero splat. -/
theorem pay_apply (x0 : Vec Ideal S10000x128 .f32) (x1 : Vec Ideal S128x64 .f32) (p : Fin 10000) (q : Fin 64) :
    k4_pay1 (F := Ideal) x0 x1 (ValueIdx.ix2 p q) = ∑ k : Fin 128, x0 (ValueIdx.ix2 p k) * x1 (ValueIdx.ix2 k q) := by
  unfold k4_pay1
  simp only [matmul]
  refine (Ideal.matmul_constant_zero_apply dot_S10000x128_S128x64_S10000x64_1_0_0_1_n_n none _ _ (ValueIdx.ix2 p q)).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ValueIdx.ix2 p q) ((ValueIdx.contrEquiv1 dot_S10000x128_S128x64_S10000x64_1_0_0_1_n_n 128 rfl rfl).symm k) = ValueIdx.ix2 p k := funext fun a => Fin.ext (by
    match a with
    | ⟨0, _⟩ => exact lhs_0 _ _
    | ⟨1, _⟩ => exact (lhs_1 _ _).trans hk)
  have er : dot_S10000x128_S128x64_S10000x64_1_0_0_1_n_n.rhsIdx (ValueIdx.ix2 p q) ((ValueIdx.contrEquiv1 dot_S10000x128_S128x64_S10000x64_1_0_0_1_n_n 128 rfl rfl).symm k) = ValueIdx.ix2 k q := funext fun a => Fin.ext (by
    match a with
    | ⟨0, _⟩ => exact (rhs_0 _ _).trans hk
    | ⟨1, _⟩ => exact rhs_1 _ _)
  rw [el, er, shapeCast_self]
  rfl

/-- The same at any index of the block. -/
theorem pay_at (x0 : Vec Ideal S10000x128 .f32) (x1 : Vec Ideal S128x64 .f32) (j : S10000x64.Idx) :
    k4_pay1 (F := Ideal) x0 x1 j = ∑ k : Fin 128, x0 (ValueIdx.ix2 (j 0) k) * x1 (ValueIdx.ix2 k (j 1)) :=
  (congrArg (k4_pay1 (F := Ideal) x0 x1) (ValueIdx.eq_ix2 j)).trans (pay_apply x0 x1 (j 0) (j 1))

/-! ## The windows' index maps over the grid -/

/-- Point t reads row block t of the activations and the whole weight, and writes row block t of the result. -/
theorem idx_facts : ∀ t : Fin cfg4.N, win4_0.index t (0 : Fin 2) = win4_2.index t (0 : Fin 2)
    ∧ win4_0.index t (1 : Fin 2) = 0 ∧ win4_2.index t (1 : Fin 2) = 0
    ∧ win4_1.index t (0 : Fin 2) = 0 ∧ win4_1.index t (1 : Fin 2) = 0
    ∧ win4_2.index t (0 : Fin 2) ≤ 9 :=
  (by decide +kernel : ∀ t : Fin grid4.N, _)

/-- Every one of the ten row blocks of the result is some point's. -/
theorem idx_onto : ∀ q0 : Fin 10, ∃ t : Fin cfg4.N, win4_2.index t = ![q0.val, 0] :=
  (by decide +kernel : ∀ q0 : Fin 10, ∃ t : Fin grid4.N, win4_2.index t = ![q0.val, 0])

/-! ## What a point writes back -/

/-- Point t writes back block t of the dense layer of the arrays as the region finds them: at row p of the block
    and column q both sides are the sum over the hidden channels k of the activation at (10000·t + p, k) times
    the weight at (k, q). -/
theorem flushed_eq (c : Dev nD) (t : Fin cfg4.N) :
    (dat4 (F := Ideal) V c).flushed 2 t = ((cfg4.win 2).blk t).view.read (Elt Ideal) (Cert.Gcn.dense2 (F := Ideal) (V c main_v45) (V c main_arg6)) := by
  show (cfg4.win 2).cut (grid4.coords t) ((dat4 (F := Ideal) V c).after 2 t) = _
  rw [after4_2]
  unfold out4_2
  rw [View.canon_unit_zero zeros]
  simp only [View.ld_unit_zero (S := S10000x128) zeros, View.ld_unit_zero (S := S128x64) zeros]
  obtain ⟨e0, e1, e2, e3, e4, e5⟩ := idx_facts t
  funext j
  show k4_pay1 (F := Ideal) (iblk4 V c 0 t) (iblk4 V c 1 t) j
    = Cert.Gcn.dense2 (F := Ideal) (V c main_v45) (V c main_arg6) (((cfg4.win 2).blk t).view.emb j)
  refine (pay_at _ _ j).trans ((Finset.sum_congr rfl fun k _ => ?_).trans (Cert.Gcn.dense2_apply _ _ _).symm)
  have hj0 : (j 0).val < 10000 := (j 0).isLt
  have hj1 : (j 1).val < 64 := (j 1).isLt
  have hk : k.val < 128 := k.isLt
  have h0 : ((cfg4.win 0).blk t).view.emb (ValueIdx.ix2 (j 0) k) = Cert.Gcn.lrow2 (((cfg4.win 2).blk t).view.emb j) k := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 128 + 1 * k.val = k.val; omega
  have h1 : ((cfg4.win 1).blk t).view.emb (ValueIdx.ix2 k (j 1)) = Cert.Gcn.rcol2 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega
  have hX : ∀ (X : (⟨S100000x128, .f32⟩ : BufTy).Contents (Elt Ideal)) (W : (⟨S128x64, .f32⟩ : BufTy).Contents (Elt Ideal)),
      X (((cfg4.win 0).blk t).view.emb (ValueIdx.ix2 (j 0) k)) * W (((cfg4.win 1).blk t).view.emb (ValueIdx.ix2 k (j 1)))
        = X (Cert.Gcn.lrow2 (((cfg4.win 2).blk t).view.emb j) k) * W (Cert.Gcn.rcol2 (((cfg4.win 2).blk t).view.emb j) k) :=
    fun X W => by rw [h0, h1]
  exact hX (V c main_v45) (V c main_arg6)

/-! ## The blocks cover the result -/

/-- An index of the result is in point t's block iff each coordinate is in the block's range on its axis. -/
theorem mem_blk (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v62).slice (win4_2.rect t)).set ↔ _
  rw [View.set_slice_whole, Rect.mem_set_unit]
  exact Iff.rfl

/-- Row r of the result lies in the block of the point that writes row block r / 10000. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := idx_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-! ## The result array after the region -/

theorem out (c : Dev nD) :
    (dat4 (F := Ideal) V c).arrAt 2 cfg4.N = Cert.Gcn.dense2 (F := Ideal) (V c main_v45) (V c main_arg6) := by
  exact (dat4 (F := Ideal) V c).arrAt_eq_of_cover 2 _ (fun t _ => flushed_eq V c t) cover

end Cert.KernelIdeal.Region4

end
-- ==== Proof.Region5.lean ====
/-
  Region 5 of the kernel's program: the bias row added to every row, then the minimum with ten, at width 64.
  The grid has ten points; point t loads rows 10000·t … 10000·t + 9999 of the 100000 × 64 array, and the one
  bias row whole, and writes back the same rows of the result. So the result array is the array it reads plus
  the bias row in every row, capped at ten, index by index: the body's value at a block index, the block's place
  in the array, and the cover of the array by the ten row blocks.
-/
import proofs.«158724_j65481071395096_1_alg».proof.Proof.Gen.KernelIdeal.Frame
import proofs.«158724_j65481071395096_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The body's loads and its store are at offsets zero. -/
theorem zero_offsets : (![0, 0] : Fin 2 → Nat) = fun _ => 0 := funext fun a => by fin_cases a <;> rfl

/-- The bias row broadcast over the block's rows, read at row p and column q, is the row's entry in column q. -/
theorem row_bcast_at (x1 : Vec Ideal S1x64 .f32) (p : Fin 10000) (q : Fin 64) :
    broadcastTo S10000x64 x1 broadcasts_S1x64_S10000x64 (ix2 p q) = x1 (ix2 (0 : Fin 1) q) :=
  broadcastTo_apply x1 broadcasts_S1x64_S10000x64 (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The body's value at row p and column q of its block: the block's entry plus the bias row's entry in that
    column, or ten if that is smaller. -/
theorem pay_at (x0 : Vec Ideal S10000x64 .f32) (x1 : Vec Ideal S1x64 .f32) (p : Fin 10000) (q : Fin 64) :
    k5_pay1 x0 x1 (ix2 p q)
      = FloatOps.minimumf (F := Ideal) (φ := .f32) (FloatOps.addf (x0 (ix2 p q)) (x1 (ix2 (0 : Fin 1) q)))
          (FloatOps.ofBits .f32 0x41200000#32) := by
  unfold k5_pay1
  show FloatOps.minimumf (F := Ideal) (φ := .f32)
      (FloatOps.addf (shapeCast S10000x64 x0 shapeCasts_S10000x64_S10000x64 (ix2 p q))
        (broadcastTo S10000x64 (shapeCast S1x64 x1 shapeCasts_S1x64_S1x64) broadcasts_S1x64_S10000x64 (ix2 p q)))
      (FloatOps.ofBits .f32 0x41200000#32) = _
  rw [shapeCast_self, shapeCast_self, row_bcast_at]

/-- The same at any index of the block, by its two coordinates. -/
theorem pay_apply (x0 : Vec Ideal S10000x64 .f32) (x1 : Vec Ideal S1x64 .f32) (y : S10000x64.Idx) :
    k5_pay1 x0 x1 y
      = FloatOps.minimumf (F := Ideal) (φ := .f32) (FloatOps.addf (x0 y) (x1 (ix2 (0 : Fin 1) ⟨(y 1).val, (y 1).isLt⟩)))
          (FloatOps.ofBits .f32 0x41200000#32) := by
  obtain ⟨p, q, rfl⟩ : ∃ (p : Fin 10000) (q : Fin 64), y = ix2 p q := ⟨y 0, y 1, eq_ix2 y⟩
  exact pay_at x0 x1 p q

/-- The printed index maps, decided over the grid: the row block read and the row block written have the same
    block index on both axes, the column index being zero; the bias row's block index is zero on both axes; the
    output's row-block index is at most nine. -/
theorem index_maps : ∀ t : Fin cfg5.N, win5_0.index t (0 : Fin 2) = win5_2.index t (0 : Fin 2)
    ∧ win5_0.index t (1 : Fin 2) = 0 ∧ win5_2.index t (1 : Fin 2) = 0
    ∧ win5_1.index t (0 : Fin 2) = 0 ∧ win5_1.index t (1 : Fin 2) = 0
    ∧ win5_2.index t (0 : Fin 2) ≤ 9 :=
  (by decide +kernel : ∀ t : Fin grid5.N, _)

/-- Every one of the ten row blocks is some point's. -/
theorem index_onto : ∀ q0 : Fin 10, ∃ t : Fin cfg5.N, win5_2.index t = ![q0.val, 0] :=
  (by decide +kernel : ∀ q0 : Fin 10, ∃ t : Fin grid5.N, win5_2.index t = ![q0.val, 0])

/-- What point t writes back is block t of the specification's function of the two arrays as the region finds them. -/
theorem flushed_eq (c : Dev nD) (t : Fin cfg5.N) :
    (dat5 (F := Ideal) V c).flushed 2 t
      = ((cfg5.win 2).blk t).view.read (Elt Ideal) (Cert.Gcn.biasMin64 (F := Ideal) (V c main_v75) (V c main_v76)) := by
  show (cfg5.win 2).cut (grid5.coords t) ((dat5 V c).after 2 t) = _
  rw [after5_2]
  unfold out5_2
  rw [View.canon_unit_zero zero_offsets]
  simp only [View.ld_unit_zero (S := S10000x64) zero_offsets, View.ld_unit_zero (S := S1x64) zero_offsets]
  obtain ⟨e0, e1, e2, e3, e4, e5⟩ := index_maps t
  funext j
  refine (pay_apply (iblk5 V c 0 t) (iblk5 V c 1 t) _).trans ?_
  refine Eq.trans ?_ (Cert.Gcn.biasMin64_apply (V c main_v75) (V c main_v76) (((cfg5.win 2).blk t).view.emb j)).symm
  have hj0 : (j 0).val < 10000 := (j 0).isLt
  have hj1 : (j 1).val < 64 := (j 1).isLt
  -- the element of the row block read sits where the element of the row block written does
  have h0 : ((cfg5.win 0).blk t).view.emb ((cfg5.win 2).xinj (grid5.coords t) j) = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  -- the bias row's element is the one in the written element's column
  have h1 : ((cfg5.win 1).blk t).view.emb (ix2 (0 : Fin 1) ⟨(j 1).val, hj1⟩) = Cert.Gcn.rowAt64 (((cfg5.win 2).blk t).view.emb j) := by
    funext a; apply Fin.ext
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  show FloatOps.minimumf (F := Ideal) (φ := .f32)
      (FloatOps.addf (V c main_v75 (((cfg5.win 0).blk t).view.emb ((cfg5.win 2).xinj (grid5.coords t) j)))
        (V c main_v76 (((cfg5.win 1).blk t).view.emb (ix2 (0 : Fin 1) ⟨(j 1).val, hj1⟩))))
      (FloatOps.ofBits .f32 0x41200000#32) = _
  rw [h0, h1]

/-- An index of the array is in point t's block iff each coordinate is in the block's range on its axis. -/
theorem mem_block (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v77).slice (win5_2.rect t)).set ↔ _
  rw [View.set_slice_whole, Rect.mem_set_unit]
  exact Iff.rfl

/-- The ten row blocks cover the array: row r is in the block of the point whose row-block index is r / 10000. -/
theorem cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := index_onto ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

theorem out (c : Dev nD) :
    (dat5 (F := Ideal) V c).arrAt 2 cfg5.N = Cert.Gcn.biasMin64 (F := Ideal) (V c main_v75) (V c main_v76) :=
  (dat5 (F := Ideal) V c).arrAt_eq_of_cover 2 _ (fun t _ => flushed_eq V c t) cover

end Cert.KernelIdeal.Region5

end
-- ==== Proof.lean ====
/-
  The certificate of a three-layer graph convolution encoder (a hidden layer with a maximum against zero,
  then a mean head and a log-deviation head capped at ten) computed by six Pallas regions among host
  stretches, against the same network written with jnp.

  Both programs build the edge list with self loops, the degrees and the symmetric edge weights by the
  SAME host operations, and each layer's propagation (gather by source, scale by the weight, scatter-add
  by destination) is the same host operations too: those are carried as functions of their operands and
  never opened (`Cert.Gcn`). What differs is where the dense layer `h = x · W` and the bias-and-activation
  step are computed: on the host in the reference, block by block over ten row blocks of 10000 rows in
  the kernel, whose matrix product runs on bf16 copies with an f32 accumulator. Over the extended reals a
  change of float format is the identity and a matrix product into a zero accumulator is the plain sum
  over the contracted axis, so a row block of the kernel's product is the same sum as the host's, and the
  bias row added to a block's rows is the bias vector added to every row; no law beyond reading both
  sides at an index is used, so the finiteness precondition is never opened.

  The kernel's two results are read off the contents at the last of @main's twelve segment boundaries
  (`Fold`), the reference's off its run (`RefSide`); both are `Cert.Gcn.muOf` and `Cert.Gcn.logstdOf`
  of the arguments. `preserves` has no ledger entry.
-/
import proofs.«158724_j65481071395096_1_alg».proof.Defs
import proofs.«158724_j65481071395096_1_alg».proof.Proof.Gen.Kernel
import proofs.«158724_j65481071395096_1_alg».proof.Proof.Gen.Kernel.Frame
import proofs.«158724_j65481071395096_1_alg».proof.Proof.Gen.KernelIdeal
import proofs.«158724_j65481071395096_1_alg».proof.Proof.Gen.KernelIdeal.Frame
import proofs.«158724_j65481071395096_1_alg».proof.Proof.Gen.ReferenceIdeal
import proofs.«158724_j65481071395096_1_alg».proof.Proof.Gen.Pre_finite_inputs
import proofs.«158724_j65481071395096_1_alg».proof.Proof.Spec
import proofs.«158724_j65481071395096_1_alg».proof.Proof.KRun
import proofs.«158724_j65481071395096_1_alg».proof.Proof.Fold
import proofs.«158724_j65481071395096_1_alg».proof.Proof.RefRun
import proofs.«158724_j65481071395096_1_alg».proof.Proof.RefSide
import proofs.«158724_j65481071395096_1_alg».proof.Proof.Region0
import proofs.«158724_j65481071395096_1_alg».proof.Proof.Region1
import proofs.«158724_j65481071395096_1_alg».proof.Proof.Region2
import proofs.«158724_j65481071395096_1_alg».proof.Proof.Region3
import proofs.«158724_j65481071395096_1_alg».proof.Proof.Region4
import proofs.«158724_j65481071395096_1_alg».proof.Proof.Region5
import Idealize.ShloMosaic.Adequacy
import Idealize.ShloMosaic.Init

noncomputable section

namespace Cert.Proof

open Idealize.ShloMosaic Idealize.ShloMosaic.TcCoe Idealize.SL.Sem

/-- Each region leaves its layer's function of its input arrays: the six region lemmas. -/
theorem regionValues : Cert.KernelIdeal.Fold.RegionValues :=
  ⟨Cert.KernelIdeal.Region0.out, Cert.KernelIdeal.Region1.out, Cert.KernelIdeal.Region2.out,
   Cert.KernelIdeal.Region3.out, Cert.KernelIdeal.Region4.out, Cert.KernelIdeal.Region5.out⟩

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Run from memories that agree on the arguments, both programs end with the mean head and the
    log-deviation head of the arguments: the kernel's at its last segment boundary, the reference's as its
    run's terms. -/
theorem algebraic : Cert.algebraic_KernelIdeal_ReferenceIdeal := by
  intro m ρ m' ρ' _ hagree
  refine ⟨fun c => Cert.KernelIdeal.Gen.W12 m ρ c (Proc.devRef .tc Cert.KernelIdeal.main_v61),
    fun c => Cert.KernelIdeal.Gen.W12 m ρ c (Proc.devRef .tc Cert.KernelIdeal.main_v77),
    Cert.KernelIdeal.KRun.run (F := Ideal) m ρ, ?_⟩
  refine (θ_run Cert.ReferenceIdeal.defs _ _).mono (fun r h c => ?_) (Cert.ReferenceIdeal.ValueP.run (F := Ideal) m' ρ')
  obtain ⟨h0, h1, hargs⟩ := h c
  obtain ⟨e0, e1, e2, e3, e4, e5, e6, e7⟩ := hagree c
  refine ⟨h0.trans ?_, h1.trans ?_, hargs⟩
  · rw [Cert.ReferenceIdeal.RefSide.mean_eq, e0, e1, e2, e3, e4, e5]
    exact (Cert.KernelIdeal.Fold.result_mean m ρ c regionValues).symm
  · rw [Cert.ReferenceIdeal.RefSide.logstd_eq, e0, e1, e2, e3, e6, e7]
    exact (Cert.KernelIdeal.Fold.result_logstd m ρ c regionValues).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
